-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x1000 : Shape := ⟨2, ![16384, 1000]⟩
abbrev S16384 : Shape := ⟨1, ![16384]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x1000 : S_.BroadcastsInDim S16384x1000 (![] : Fin 0 → Fin S16384x1000.rank)
  reducesTo_S16384x1000_S_d0_1 : S16384x1000.ReducesTo [0, 1] S_

variable [Facts]

def fn {F : FTy → Type} [FloatOps F] (main_arg0 : FVec F S16384x256 .f32) (main_arg1 : FVec F S16384x1000 .f32) (main_arg2 : IVec S16384 32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x1000 .f32 := Host.absf main_arg1
  let main_cst_0 : FVec F S_ .f32 := constant S_ .f32 0x7F800000#32
  let main_v5 : FVec F S16384x1000 .f32 := broadcastInDim S16384x1000 ![] bcast_S_S16384x1000 main_cst_0
  let main_v6 : IVec S16384x1000 1 := cmpf .olt main_v4 main_v5
  let main_c_1 : IVec S_ 1 := constantI S_ 1 1#1
  let main_v7 : IVec S_ 1 := (fun x v => Host.reduce IntOp.andi x v reducesTo_S16384x1000_S_d0_1 h_S_) main_v6 main_c_1
  let main_v8 : IVec S_ 1 := andi main_v3 main_v7
  main_v8
-- ==== Kernel.lean ====
abbrev S16384x256 : Shape := ⟨2, ![16384, 256]⟩
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S16384x2 : Shape := ⟨2, ![16384, 2]⟩
abbrev S1x16384 : Shape := ⟨2, ![1, 16384]⟩
abbrev S512x256 : Shape := ⟨2, ![512, 256]⟩
abbrev S2048x256 : Shape := ⟨2, ![2048, 256]⟩
abbrev S512x1 : Shape := ⟨2, ![512, 1]⟩
abbrev S1x2048 : Shape := ⟨2, ![1, 2048]⟩
abbrev S512x2048 : Shape := ⟨2, ![512, 2048]⟩
abbrev S512 : Shape := ⟨1, ![512]⟩

abbrev nBuf : Space → Nat
  | .hbm => 48
  | .vmem => 13
  | .smem => 0
  | _ => 0

abbrev bufTy : (tb : Table) → Fin (tcTables nBuf tb) → BufTy
  | .hbm, ⟨0, _⟩ => ⟨S16384x256, .f32⟩
  | .hbm, ⟨1, _⟩ => ⟨S16384x1000, .f32⟩
  | .hbm, ⟨2, _⟩ => ⟨S16384, .i32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x256, .f32⟩
  | .hbm, ⟨12, _⟩ => ⟨S16384x256, .f32⟩
  | .hbm, ⟨13, _⟩ => ⟨S16384x256, .bf16⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S16384x1, .i32⟩
  | .hbm, ⟨30, _⟩ => ⟨S16384x1, .i32⟩
  | .hbm, ⟨31, _⟩ => ⟨S16384x2, .i32⟩
  | .hbm, ⟨32, _⟩ => ⟨S16384, .f32⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384x1, .f32⟩
  | .hbm, ⟨40, _⟩ => ⟨S16384x1, .i32⟩
  | .hbm, ⟨41, _⟩ => ⟨S1x16384, .i32⟩
  | .hbm, ⟨42, _⟩ => ⟨S16384x1, .f32⟩
  | .hbm, ⟨43, _⟩ => ⟨S16384, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S512x1, .i32⟩
  | .local _ .vmem, ⟨5, _⟩ => ⟨S512x1, .i32⟩
  | .local _ .vmem, ⟨6, _⟩ => ⟨S1x2048, .i32⟩
  | .local _ .vmem, ⟨7, _⟩ => ⟨S1x2048, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_16 : BitVec 32 := 0#32
  let v33 : BitVec 1 := Scalar.cmpi .ne v32 c0_i32_16
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  bitsLt_bf16_f32 : FTy.bits .bf16 < FTy.bits .f32
  bcast_S_S16384 : S_.BroadcastsInDim S16384 (![] : Fin 0 → Fin S16384.rank)
  concatenates_S16384x1_S16384x1_S16384x2_d1 : Shape.Concatenates [S16384x1, S16384x1] S16384x2 1
  shapeCasts_S16384_S16384x1 : S16384.ShapeCasts S16384x1
  shapeCasts_S16384_S1x16384 : S16384.ShapeCasts S1x16384
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  reduces_S512x2048_S512 : S512x2048.Reduces [1] S512
  shapeCasts_S512_S512x1 : S512.ShapeCasts S512x1
  shapeCasts_S16384x1_S16384 : S16384x1.ShapeCasts S16384
  reducesTo_S16384_S_d0 : S16384.ReducesTo [0] S_
  gather_S16384x1000_S16384x2_S16384_n_01_n_n_01_1_11_wf : GatherDims.WF S16384x1000 S16384x2 S16384 [] [0, 1] [] [0, 1] [] 1 ![1, 1]
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .bf16 = 32 ∨ (Rect.block (s := S16384x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .bf16 = 32 ∨ (Rect.block (s := S16384x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .i32 = 32 ∨ (Rect.block (s := S16384x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x16384.size a
  hwx0_3 : ∀ i : grid0.Coords, EltTy.bits .i32 = 32 ∨ (Rect.block (s := S1x16384) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S16384x1.size a
  hwx0_4 : ∀ i : grid0.Coords, EltTy.bits .f32 = 32 ∨ (Rect.block (s := S16384x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S16384x1.size a
  hwx0_5 : ∀ i : grid0.Coords, EltTy.bits .f32 = 32 ∨ (Rect.block (s := S16384x1) S512x1.size (cc0_transform_5 i) (hinb0_5 i)).WholeWords (EltTy.packing .f32)

variable [Facts₀]

def gather_S16384x1000_S16384x2_S16384_n_01_n_n_01_1_11 : GatherDims S16384x1000 S16384x2 S16384 where
  offsetDims := []
  collapsedSliceDims := [0, 1]
  operandBatchingDims := []
  startIndicesBatchingDims := []
  startIndexMap := [0, 1]
  indexVectorDim := 1
  sliceSizes := ![1, 1]
  wf := gather_S16384x1000_S16384x2_S16384_n_01_n_n_01_1_11_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_v5) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x256 : Shape := ⟨2, ![16384, 256]⟩
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S256x16384 : Shape := ⟨2, ![256, 16384]⟩
abbrev S16384x16384 : Shape := ⟨2, ![16384, 16384]⟩
abbrev S1x16384 : Shape := ⟨2, ![1, 16384]⟩
abbrev S16384x2 : Shape := ⟨2, ![16384, 2]⟩

abbrev nBuf : Space → Nat
  | .hbm => 60
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1000, .f32⟩
  | .hbm, ⟨2, _⟩ => ⟨S16384, .i32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x256, .f32⟩
  | .hbm, ⟨12, _⟩ => ⟨S16384x256, .f32⟩
  | .hbm, ⟨13, _⟩ => ⟨S256x16384, .f32⟩
  | .hbm, ⟨14, _⟩ => ⟨S16384x16384, .f32⟩
  | .hbm, ⟨15, _⟩ => ⟨S16384x1, .i32⟩
  | .hbm, ⟨16, _⟩ => ⟨S1x16384, .i32⟩
  | .hbm, ⟨17, _⟩ => ⟨S16384x16384, .i32⟩
  | .hbm, ⟨18, _⟩ => ⟨S16384x16384, .i32⟩
  | .hbm, ⟨19, _⟩ => ⟨S16384x16384, .i1⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S16384x1, .i32⟩
  | .hbm, ⟨37, _⟩ => ⟨S16384x2, .i32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x16384, .f32⟩
  | .hbm, ⟨47, _⟩ => ⟨S16384x16384, .i1⟩
  | .hbm, ⟨48, _⟩ => ⟨S16384x16384, .i1⟩
  | .hbm, ⟨49, _⟩ => ⟨S16384x16384, .f32⟩
  | .hbm, ⟨50, _⟩ => ⟨S16384x16384, .f32⟩
  | .hbm, ⟨51, _⟩ => ⟨S_, .f32⟩
  | .hbm, ⟨52, _⟩ => ⟨S16384x16384, .f32⟩
  | .hbm, ⟨53, _⟩ => ⟨S16384x16384, .f32⟩
  | .hbm, ⟨54, _⟩ => ⟨S_, .f32⟩
  | .hbm, ⟨55, _⟩ => ⟨S16384, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  transposes_S16384x256_S256x16384_1_0 : S16384x256.Transposes [1, 0] S256x16384
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384 : S_.BroadcastsInDim S16384 (![] : Fin 0 → Fin S16384.rank)
  concatenates_S16384x1_S16384x1_S16384x2_d1 : Shape.Concatenates [S16384x1, S16384x1] S16384x2 1
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x256_S256x16384_S16384x16384_1_0_0_1_n_n_wf : DotDims.WF S16384x256 S256x16384 S16384x16384 [1] [0] [0] [1] [] []
  gather_S16384x1000_S16384x2_S16384_n_01_n_n_01_1_11_wf : GatherDims.WF S16384x1000 S16384x2 S16384 [] [0, 1] [] [0, 1] [] 1 ![1, 1]

variable [Facts₀]

def dot_S16384x256_S256x16384_S16384x16384_1_0_0_1_n_n : DotDims S16384x256 S256x16384 S16384x16384 where
  lhsContracting := [1]
  rhsContracting := [0]
  lhsNonContracting := [0]
  rhsNonContracting := [1]
  lhsBatch := []
  rhsBatch := []
  wf := dot_S16384x256_S256x16384_S16384x16384_1_0_0_1_n_n_wf
def gather_S16384x1000_S16384x2_S16384_n_01_n_n_01_1_11 : GatherDims S16384x1000 S16384x2 S16384 where
  offsetDims := []
  collapsedSliceDims := [0, 1]
  operandBatchingDims := []
  startIndicesBatchingDims := []
  startIndexMap := [0, 1]
  indexVectorDim := 1
  sliceSizes := ![1, 1]
  wf := gather_S16384x1000_S16384x2_S16384_n_01_n_n_01_1_11_wf

class Facts : Prop extends Facts₀ where

variable [Facts]
-- ==== Proof.BitsSetup.lean ====
/-
  The similarity-margin kernel on its 32 × 8 grid: what every later module is stated over.

  The program runs the host lines that normalise the rows and gather the thresholds, then ONE kernel region over
  grid points t = 8·i + j (row tile i of 512 rows, column tile j of 2048 columns), then the host lines that average
  the region's result. Here: the buffers' contents when the region is entered (the host lines' result), the
  block each window holds at a point, the two branch conditions of the body in closed form (the accumulator is
  zeroed where j = 0, the output tile stored where j = 7), and where the output window is idle.
-/
import proofs.«127936_j46145128629049_1_alg».proof.Proof.Gen.Kernel.Launch
import proofs.«127936_j46145128629049_1_alg».proof.Proof.Gen.Kernel.Skeleton
import proofs.«127936_j46145128629049_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The TensorCore buffers of core `c` after the host lines before the region: the row norms, the normalised
    rows, the gathered thresholds and the two reshapes of the labels, computed from the launch contents `m`. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the two stretches of host lines, the region, the averaging lines. So from the launch it
    reduces to the region continued by the averaging lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- No host line before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it: rows 512·i … of the embeddings,
    the row labels and the thresholds (windows 0, 2, 4), rows 2048·j … of the embeddings (window 1), columns
    2048·j … of the column labels (window 3). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is `V`'s and whose body leaves the block in place: where the pipeline does not fetch, the
    block index has not moved. One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, in closed form -/

/-- The accumulator is zeroed where the column-tile coordinate is 0, -/
abbrev condFirst (i : grid0.Coords) : Prop := (Scalar.cmpi .ne (Scalar.extui (Scalar.cmpi .eq (BitVec.ofNat 32 (i 1).val) 0#32)) 0#32) = 1#1
/-- which are the points ≡ 0 (mod 8); -/
theorem hcondFirst : ∀ t : Fin cfg0.N, condFirst (grid0.coords t) ↔ t.val % 8 = 0 :=
  (by decide +kernel : ∀ t : Fin grid0.N, condFirst (grid0.coords t) ↔ t.val % 8 = 0)

/-- the output tile is stored where the column-tile coordinate is 7, -/
abbrev condLast (i : grid0.Coords) : Prop := k0_cond2 i = 1#1
/-- which are the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem liveAt_in0 : ∀ t : Fin cfg0.N, cfg0.idle 0 (grid0.coords t) = false := by decide +kernel
theorem liveAt_in1 : ∀ t : Fin cfg0.N, cfg0.idle 1 (grid0.coords t) = false := by decide +kernel
theorem liveAt_in2 : ∀ t : Fin cfg0.N, cfg0.idle 2 (grid0.coords t) = false := by decide +kernel
theorem liveAt_in3 : ∀ t : Fin cfg0.N, cfg0.idle 3 (grid0.coords t) = false := by decide +kernel
theorem liveAt_in4 : ∀ t : Fin cfg0.N, cfg0.idle 4 (grid0.coords t) = false := by decide +kernel
/-- Away from the last column tile the body stores nothing into the output window and the pipeline does not write it back. -/
theorem idleAt_out : ∀ t : Fin cfg0.N, ¬condLast (grid0.coords t) → cfg0.idle 5 (grid0.coords t) = true := by decide +kernel
theorem noFlush_out : ∀ t : Fin cfg0.N, ¬condLast (grid0.coords t) → (cfg0.win 5).flush t = false := by decide +kernel
/-- At the last column tile the output window is live. -/
theorem liveAt_out : ∀ t : Fin cfg0.N, condLast (grid0.coords t) → cfg0.idle 5 (grid0.coords t) = false := by decide +kernel

/-! ## The memrefs the body is called with -/

abbrev msRow (t : Fin cfg0.N) : Memref sig .tc .vmem S512x256 .bf16 := win0_0.stage (cfg0.slots t 0)
abbrev hsRow (t : Fin cfg0.N) : (msRow t).IsWhole := hstage0_0 ((cfg0.slots t 0).cast nbuf0_0)
abbrev msCol (t : Fin cfg0.N) : Memref sig .tc .vmem S2048x256 .bf16 := win0_1.stage (cfg0.slots t 1)
abbrev hsCol (t : Fin cfg0.N) : (msCol t).IsWhole := hstage0_1 ((cfg0.slots t 1).cast nbuf0_1)
abbrev msTRow (t : Fin cfg0.N) : Memref sig .tc .vmem S512x1 .i32 := win0_2.stage (cfg0.slots t 2)
abbrev hsTRow (t : Fin cfg0.N) : (msTRow t).IsWhole := hstage0_2 ((cfg0.slots t 2).cast nbuf0_2)
abbrev msTCol (t : Fin cfg0.N) : Memref sig .tc .vmem S1x2048 .i32 := win0_3.stage (cfg0.slots t 3)
abbrev hsTCol (t : Fin cfg0.N) : (msTCol t).IsWhole := hstage0_3 ((cfg0.slots t 3).cast nbuf0_3)
abbrev msThr (t : Fin cfg0.N) : Memref sig .tc .vmem S512x1 .f32 := win0_4.stage (cfg0.slots t 4)
abbrev hsThr (t : Fin cfg0.N) : (msThr t).IsWhole := hstage0_4 ((cfg0.slots t 4).cast nbuf0_4)
abbrev msOut (t : Fin cfg0.N) : Memref sig .tc .vmem S512x1 .f32 := win0_5.stage (cfg0.slots t 5)
abbrev hsOut (t : Fin cfg0.N) : (msOut t).IsWhole := hstage0_5 ((cfg0.slots t 5).cast nbuf0_5)
/-- The running row maximum lives in the kernel's own scratch buffer, carried from point to point. -/
abbrev accM : Memref sig .tc .vmem S512x1 .f32 := Memref.whole cc0_scratch0
/-- One staging buffer of the output window and the scratch as views, through which contents are stated. -/
abbrev VOut : View sig .tc .vmem S512x1 .f32 := (Memref.whole cc0_stg5_0 : Memref sig .tc .vmem S512x1 .f32).view
abbrev VAcc : View sig .tc .vmem S512x1 .f32 := accM.view

/-- What the region may use freely: the scratch at some contents and the generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Fr

end
-- ==== Proof.BitsRunFirst.lean ====
/-
  The body at a point of the FIRST column tile (j = 0): the running row maximum is reset to zero, the tile's
  row maxima are folded in, nothing is stored into the output window. Run symbolically on whole staging
  buffers holding the five input blocks; the stores the scratch buffer ends with are found by the run.
-/
import proofs.«127936_j46145128629049_1_alg».proof.Proof.BitsSetup

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At j = 0: from the inputs' buffers at their blocks, the output window's buffer at anything (handed back
    untouched) and the scratch at anything, the body runs to the same with the scratch overwritten by the
    pieces `LS` the run finds (the reset, then the fold of this tile's maxima). -/
noncomputable def runFirst (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : condFirst i) (hc1 : ¬condLast i)
    (x0 : Vec F S512x256 .bf16) (x1 : Vec F S2048x256 .bf16) (x2 : Vec F S512x1 .i32) (x3 : Vec F S1x2048 .i32) (x4 : Vec F S512x1 .f32) :
    { LS : List (View.Piece (Elt F) S512x1 .f32) //
      ∀ (xo : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨?_, fun xo E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Fr

end
-- ==== Proof.BitsRunMid.lean ====
/-
  The body at a point of a MIDDLE column tile (0 < j < 7): the tile's row maxima are folded into the running
  maximum the point before left in the scratch buffer; nothing is stored into the output window.
-/
import proofs.«127936_j46145128629049_1_alg».proof.Proof.BitsRunFirst

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At 0 < j < 7: from the inputs' buffers at their blocks, the output window's buffer at anything (handed back
    untouched) and the scratch at `xs`, the body runs to the same with the scratch overwritten by the pieces
    `LS` the run finds (the fold of this tile's maxima into `xs`). -/
noncomputable def runMid (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : ¬condLast i)
    (x0 : Vec F S512x256 .bf16) (x1 : Vec F S2048x256 .bf16) (x2 : Vec F S512x1 .i32) (x3 : Vec F S1x2048 .i32) (x4 : Vec F S512x1 .f32) (xs : Vec F S512x1 .f32) :
    { LS : List (View.Piece (Elt F) S512x1 .f32) //
      ∀ (xo : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨?_, fun xo E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Fr

end
-- ==== Proof.BitsRunLast.lean ====
/-
  The body at a point of the LAST column tile (j = 7): the tile's row maxima are folded into the running
  maximum, and the result — the row maxima over all eight column tiles — is stored into the output window.
-/
import proofs.«127936_j46145128629049_1_alg».proof.Proof.BitsRunMid

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At j = 7: from the inputs' buffers at their blocks, the output window's buffer at anything and the scratch at
    `xs`, the body runs to the inputs as they were, the output window's buffer overwritten by the pieces `LO` and
    the scratch by the pieces `LS` the run finds. -/
noncomputable def runLast (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : condLast i)
    (x0 : Vec F S512x256 .bf16) (x1 : Vec F S2048x256 .bf16) (x2 : Vec F S512x1 .i32) (x3 : Vec F S1x2048 .i32) (x4 : Vec F S512x1 .f32) (xs : Vec F S512x1 .f32) :
    Σ' (LO : List (View.Piece (Elt F) S512x1 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Fr

end
-- ==== Proof.BitsData.lean ====
/-
  The accumulation, point by point, and the region's proof data.

  After the body at point t = 8·i + j the scratch buffer holds the running row maximum of row tile i over the
  column tiles 0 … j (reset at j = 0), and at j = 7 the output window's buffer holds it too. Each is read off
  the stores the body's symbolic runs found; the recursion over the points threads what the point before left.
  The proof data of the region: every input window's buffer holds its block, the output window's what this
  recursion says, the region invariant carries the scratch at the recursion's value from the second point on.
-/
import proofs.«127936_j46145128629049_1_alg».proof.Proof.BitsRunLast

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves -/

theorem coverAccFirst (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : condFirst i) (hc1 : ¬condLast i)
    (x0 : Vec F S512x256 .bf16) (x1 : Vec F S2048x256 .bf16) (x2 : Vec F S512x1 .i32) (x3 : Vec F S1x2048 .i32) (x4 : Vec F S512x1 .f32) (y : S512x1.Idx) :
    ∃ pc ∈ (runFirst c i arg2 harg2 arg3 harg3 arg4 harg4 arg5 harg5 arg6 harg6 arg7 harg7 arg8 harg8 hc0 hc1 x0 x1 x2 x3 x4).1, y ∈ pc.1.set :=
  View.cover_of_tiledL (runFirst c i arg2 harg2 arg3 harg3 arg4 harg4 arg5 harg5 arg6 harg6 arg7 harg7 arg8 harg8 hc0 hc1 x0 x1 x2 x3 x4).1 S512x1.size (by sl_kernel_rfl) y

/-- The scratch after a point of the first column tile: its stores read back. -/
def accFirst (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : condFirst i) (hc1 : ¬condLast i)
    (x0 : Vec F S512x256 .bf16) (x1 : Vec F S2048x256 .bf16) (x2 : Vec F S512x1 .i32) (x3 : Vec F S1x2048 .i32) (x4 : Vec F S512x1 .f32) : Vec F S512x1 .f32 :=
  VAcc.read (Elt F) (VAcc.writes (Elt F) VAcc.junk (runFirst c i arg2 harg2 arg3 harg3 arg4 harg4 arg5 harg5 arg6 harg6 arg7 harg7 arg8 harg8 hc0 hc1 x0 x1 x2 x3 x4).1)

theorem coverAccMid (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : ¬condLast i)
    (x0 : Vec F S512x256 .bf16) (x1 : Vec F S2048x256 .bf16) (x2 : Vec F S512x1 .i32) (x3 : Vec F S1x2048 .i32) (x4 : Vec F S512x1 .f32) (xs : Vec F S512x1 .f32) (y : S512x1.Idx) :
    ∃ pc ∈ (runMid c i arg2 harg2 arg3 harg3 arg4 harg4 arg5 harg5 arg6 harg6 arg7 harg7 arg8 harg8 hc0 hc1 x0 x1 x2 x3 x4 xs).1, y ∈ pc.1.set :=
  View.cover_of_tiledL (runMid c i arg2 harg2 arg3 harg3 arg4 harg4 arg5 harg5 arg6 harg6 arg7 harg7 arg8 harg8 hc0 hc1 x0 x1 x2 x3 x4 xs).1 S512x1.size (by sl_kernel_rfl) y

/-- The scratch after a point of a middle column tile, over what the point before left (`xs`). -/
def accMid (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : ¬condLast i)
    (x0 : Vec F S512x256 .bf16) (x1 : Vec F S2048x256 .bf16) (x2 : Vec F S512x1 .i32) (x3 : Vec F S1x2048 .i32) (x4 : Vec F S512x1 .f32) (xs : Vec F S512x1 .f32) : Vec F S512x1 .f32 :=
  VAcc.read (Elt F) (VAcc.writes (Elt F) VAcc.junk (runMid c i arg2 harg2 arg3 harg3 arg4 harg4 arg5 harg5 arg6 harg6 arg7 harg7 arg8 harg8 hc0 hc1 x0 x1 x2 x3 x4 xs).1)

theorem coverOutLast (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : condLast i)
    (x0 : Vec F S512x256 .bf16) (x1 : Vec F S2048x256 .bf16) (x2 : Vec F S512x1 .i32) (x3 : Vec F S1x2048 .i32) (x4 : Vec F S512x1 .f32) (xs : Vec F S512x1 .f32) (y : S512x1.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S512x1.size (by sl_kernel_rfl) y

/-- The output window's buffer after a point of the last column tile. -/
def outLast (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : condLast i)
    (x0 : Vec F S512x256 .bf16) (x1 : Vec F S2048x256 .bf16) (x2 : Vec F S512x1 .i32) (x3 : Vec F S1x2048 .i32) (x4 : Vec F S512x1 .f32) (xs : Vec F S512x1 .f32) : Vec F S512x1 .f32 :=
  VOut.read (Elt F) (VOut.writes (Elt F) VOut.junk (runLast c i arg2 harg2 arg3 harg3 arg4 harg4 arg5 harg5 arg6 harg6 arg7 harg7 arg8 harg8 hc0 hc1 x0 x1 x2 x3 x4 xs).1)

theorem coverAccLast (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : condLast i)
    (x0 : Vec F S512x256 .bf16) (x1 : Vec F S2048x256 .bf16) (x2 : Vec F S512x1 .i32) (x3 : Vec F S1x2048 .i32) (x4 : Vec F S512x1 .f32) (xs : Vec F S512x1 .f32) (y : S512x1.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S512x1.size (by sl_kernel_rfl) y

/-- The scratch after a point of the last column tile. -/
def accLast (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : condLast i)
    (x0 : Vec F S512x256 .bf16) (x1 : Vec F S2048x256 .bf16) (x2 : Vec F S512x1 .i32) (x3 : Vec F S1x2048 .i32) (x4 : Vec F S512x1 .f32) (xs : Vec F S512x1 .f32) : Vec F S512x1 .f32 :=
  VAcc.read (Elt F) (VAcc.writes (Elt F) VAcc.junk (runLast c i arg2 harg2 arg3 harg3 arg4 harg4 arg5 harg5 arg6 harg6 arg7 harg7 arg8 harg8 hc0 hc1 x0 x1 x2 x3 x4 xs).2.1)

/-! ## The same at a grid point's own memrefs and blocks -/

/-- The scratch after point `t` when `t` is in the first column tile. -/
abbrev accFirstAt (c : Dev nD) (t : Fin cfg0.N) (h0 : t.val % 8 = 0) (h1 : ¬t.val % 8 = 7) : Vec F S512x1 .f32 :=
  accFirst c (grid0.coords t) (msRow t) (hsRow t) (msCol t) (hsCol t) (msTRow t) (hsTRow t) (msTCol t) (hsTCol t) (msThr t) (hsThr t) (msOut t) (hsOut t) accM (Memref.isWhole_whole _) ((hcondFirst t).mpr h0) (fun h => h1 ((hcondLast t).mp h)) (iblk m c 0 t) (iblk m c 1 t) (iblk m c 2 t) (iblk m c 3 t) (iblk m c 4 t)
/-- The scratch after point `t` in a middle column tile, over `xs`. -/
abbrev accMidAt (c : Dev nD) (t : Fin cfg0.N) (h0 : ¬t.val % 8 = 0) (h1 : ¬t.val % 8 = 7) (xs : Vec F S512x1 .f32) : Vec F S512x1 .f32 :=
  accMid c (grid0.coords t) (msRow t) (hsRow t) (msCol t) (hsCol t) (msTRow t) (hsTRow t) (msTCol t) (hsTCol t) (msThr t) (hsThr t) (msOut t) (hsOut t) accM (Memref.isWhole_whole _) (fun h => h0 ((hcondFirst t).mp h)) (fun h => h1 ((hcondLast t).mp h)) (iblk m c 0 t) (iblk m c 1 t) (iblk m c 2 t) (iblk m c 3 t) (iblk m c 4 t) xs
/-- The output buffer and the scratch after point `t` in the last column tile, over `xs`. -/
abbrev outLastAt (c : Dev nD) (t : Fin cfg0.N) (h0 : ¬t.val % 8 = 0) (h1 : t.val % 8 = 7) (xs : Vec F S512x1 .f32) : Vec F S512x1 .f32 :=
  outLast c (grid0.coords t) (msRow t) (hsRow t) (msCol t) (hsCol t) (msTRow t) (hsTRow t) (msTCol t) (hsTCol t) (msThr t) (hsThr t) (msOut t) (hsOut t) accM (Memref.isWhole_whole _) (fun h => h0 ((hcondFirst t).mp h)) ((hcondLast t).mpr h1) (iblk m c 0 t) (iblk m c 1 t) (iblk m c 2 t) (iblk m c 3 t) (iblk m c 4 t) xs
abbrev accLastAt (c : Dev nD) (t : Fin cfg0.N) (h0 : ¬t.val % 8 = 0) (h1 : t.val % 8 = 7) (xs : Vec F S512x1 .f32) : Vec F S512x1 .f32 :=
  accLast c (grid0.coords t) (msRow t) (hsRow t) (msCol t) (hsCol t) (msTRow t) (hsTRow t) (msTCol t) (hsTCol t) (msThr t) (hsThr t) (msOut t) (hsOut t) accM (Memref.isWhole_whole _) (fun h => h0 ((hcondFirst t).mp h)) ((hcondLast t).mpr h1) (iblk m c 0 t) (iblk m c 1 t) (iblk m c 2 t) (iblk m c 3 t) (iblk m c 4 t) xs

/-! ## The accumulation -/

/-- What the output window's buffer (first component; meaningful only at the last column tile, where the body
    stores into it) and the scratch (second component) hold after the body at position `n`: the case the
    position is in, run at its memrefs and blocks, over what position `n - 1` left in the scratch. -/
def stateAt (c : Dev nD) : (n : ℕ) → n < cfg0.N → Vec F S512x1 .f32 × Vec F S512x1 .f32
  | 0, hn => (accFirstAt m c ⟨0, hn⟩ (Nat.zero_mod _) (fun h => absurd h (by simp)), accFirstAt m c ⟨0, hn⟩ (Nat.zero_mod _) (fun h => absurd h (by simp)))
  | n + 1, hn =>
    if h0 : (n + 1) % 8 = 0 then
      if h1 : (n + 1) % 8 = 7 then
        False.elim (by omega)
      else
        (accFirstAt m c ⟨n + 1, hn⟩ h0 h1, accFirstAt m c ⟨n + 1, hn⟩ h0 h1)
    else
      if h1 : (n + 1) % 8 = 7 then
        (outLastAt m c ⟨n + 1, hn⟩ h0 h1 (stateAt c n (Nat.lt_of_succ_lt hn)).2, accLastAt m c ⟨n + 1, hn⟩ h0 h1 (stateAt c n (Nat.lt_of_succ_lt hn)).2)
      else
        (accMidAt m c ⟨n + 1, hn⟩ h0 h1 (stateAt c n (Nat.lt_of_succ_lt hn)).2, accMidAt m c ⟨n + 1, hn⟩ h0 h1 (stateAt c n (Nat.lt_of_succ_lt hn)).2)

theorem stateAt_first (c : Dev nD) (t : Fin cfg0.N) (h0 : t.val % 8 = 0) (h1 : ¬t.val % 8 = 7) :
    stateAt m c t.val t.isLt = (accFirstAt m c t h0 h1, accFirstAt m c t h0 h1) := by
  obtain ⟨n, hn⟩ := t
  cases n with
  | zero => exact rfl
  | succ n => exact (dif_pos h0).trans ((dif_neg h1).trans rfl)

theorem stateAt_mid (c : Dev nD) (t : Fin cfg0.N) (h0 : ¬t.val % 8 = 0) (h1 : ¬t.val % 8 = 7) :
    stateAt m c t.val t.isLt = (accMidAt m c t h0 h1 (stateAt m c (t.val - 1) (Nat.lt_of_le_of_lt (Nat.sub_le _ _) t.isLt)).2,
      accMidAt m c t h0 h1 (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg0.N) (h0 : ¬t.val % 8 = 0) (h1 : t.val % 8 = 7) :
    stateAt m c t.val t.isLt = (outLastAt m c t h0 h1 (stateAt m c (t.val - 1) (Nat.lt_of_le_of_lt (Nat.sub_le _ _) t.isLt)).2,
      accLastAt m c t h0 h1 (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before the first point the scratch holds anything; before any later position `n` it holds what position
    `n - 1` left. The generator register is at some state throughout. -/
def PhiS (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((stateAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((stateAt m c (n - 1) (by omega)).2)) ∗ (∃ r, prngReg c r)) := by
  cases n with
  | zero => exact absurd rfl hz
  | succ n => rfl

/-! ## The proof data -/

/-- The region's proof data on core `c`. The two windows onto the embeddings each hold HALF of that array's share
    (both only read it); every other window's array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stateAt m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_out (c : Dev nD) (t : Fin cfg0.N) : (dats m 0 c).after 5 t = (stateAt m c t.val t.isLt).1 := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d

end Cert.Kernel.Fr

end
-- ==== Proof.BitsBody.lean ====
/-
  The body obligation: at every grid point the kernel body, called on the windows' current staging buffers,
  turns what the region's proof data say it finds into what they say it leaves. Three cases by the column
  tile: first (the running maximum is reset, so whatever the scratch held is irrelevant), middle, and last
  (the output window is written). In each the symbolic run of that case applies; the scratch comes back at the
  accumulation's value because its stores cover it.
-/
import proofs.«127936_j46145128629049_1_alg».proof.Proof.BitsData

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (msRow t) fullShare ((dats m 0 c).before 0 t d))
    ∗ (∃ d, owns (c : Thread nD τ) (msCol t) fullShare ((dats m 0 c).before 1 t d))
    ∗ (∃ d, owns (c : Thread nD τ) (msTRow t) fullShare ((dats m 0 c).before 2 t d))
    ∗ (∃ d, owns (c : Thread nD τ) (msTCol t) fullShare ((dats m 0 c).before 3 t d))
    ∗ (∃ d, owns (c : Thread nD τ) (msThr t) fullShare ((dats m 0 c).before 4 t d))
    ∗ (∃ d, owns (c : Thread nD τ) (msOut t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (msRow t) fullShare ((dats m 0 c).after 0 t) from by
    unfold Dat.leavesExact; rw [liveAt_in0 t], after_in0]
  rw [show (dats m 0 c).leavesExact 1 t = owns (c : Thread nD τ) (msCol t) fullShare ((dats m 0 c).after 1 t) from by
    unfold Dat.leavesExact; rw [liveAt_in1 t], after_in1]
  rw [show (dats m 0 c).leavesExact 2 t = owns (c : Thread nD τ) (msTRow t) fullShare ((dats m 0 c).after 2 t) from by
    unfold Dat.leavesExact; rw [liveAt_in2 t], after_in2]
  rw [show (dats m 0 c).leavesExact 3 t = owns (c : Thread nD τ) (msTCol t) fullShare ((dats m 0 c).after 3 t) from by
    unfold Dat.leavesExact; rw [liveAt_in3 t], after_in3]
  rw [show (dats m 0 c).leavesExact 4 t = owns (c : Thread nD τ) (msThr t) fullShare ((dats m 0 c).after 4 t) from by
    unfold Dat.leavesExact; rw [liveAt_in4 t], after_in4]
  by_cases h0 : t.val % 8 = 0
  · have h1 : ¬t.val % 8 = 7 := by omega
    rw [Dat.leavesExact_idle (dats m 0 c) 5 t (idleAt_out t (fun h => h1 ((hcondLast t).mp h))) (noFlush_out t (fun h => h1 ((hcondLast t).mp h)))]
    rw [stateAt_first m c t h0 h1]
    unfold accFirstAt accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) (msRow t) (hsRow t) (msCol t) (hsCol t) (msTRow t) (hsTRow t) (msTCol t) (hsTCol t) (msThr t) (hsThr t) (msOut t) (hsOut t) accM (Memref.isWhole_whole _) ((hcondFirst t).mpr h0) (fun h => h1 ((hcondLast t).mp h)) (iblk m c 0 t) (iblk m c 1 t) (iblk m c 2 t) (iblk m c 3 t) (iblk m c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverAccFirst c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) (msRow t) (hsRow t) (msCol t) (hsCol t) (msTRow t) (hsTRow t) (msTCol t) (hsTCol t) (msThr t) (hsThr t) (msOut t) (hsOut t) accM (Memref.isWhole_whole _) ((hcondFirst t).mpr h0) (fun h => h1 ((hcondLast t).mp h)) (iblk m c 0 t) (iblk m c 1 t) (iblk m c 2 t) (iblk m c 3 t) (iblk m c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverAccFirst c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · rw [show (dats m 0 c).leavesExact 5 t = owns (c : Thread nD τ) (msOut t) fullShare ((dats m 0 c).after 5 t) from by
        unfold Dat.leavesExact; rw [liveAt_out t ((hcondLast t).mpr h1)], after_out]
      rw [stateAt_last m c t h0 h1]
      unfold outLastAt accLastAt outLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) (msRow t) (hsRow t) (msCol t) (hsCol t) (msTRow t) (hsTRow t) (msTCol t) (hsTCol t) (msThr t) (hsThr t) (msOut t) (hsOut t) accM (Memref.isWhole_whole _) (fun h => h0 ((hcondFirst t).mp h)) ((hcondLast t).mpr h1) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverAccLast c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverOutLast c _ _ _ _ _ _ _ _ _ _ _ _ _ _ _ _ _ _ _ _ _ _ _)
    · rw [Dat.leavesExact_idle (dats m 0 c) 5 t (idleAt_out t (fun h => h1 ((hcondLast t).mp h))) (noFlush_out t (fun h => h1 ((hcondLast t).mp h)))]
      rw [stateAt_mid m c t h0 h1]
      unfold accMidAt accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runMid c (grid0.coords t) (msRow t) (hsRow t) (msCol t) (hsCol t) (msTRow t) (hsTRow t) (msTCol t) (hsTCol t) (msThr t) (hsThr t) (msOut t) (hsOut t) accM (Memref.isWhole_whole _) (fun h => h0 ((hcondFirst t).mp h)) (fun h => h1 ((hcondLast t).mp h)) (iblk m c 0 t) (iblk m c 1 t) (iblk m c 2 t) (iblk m c 3 t) (iblk m c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverAccMid c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

end Cert.Kernel.Fr

end
-- ==== Proof.BitsShares.lean ====
/-
  custom_call 0 reads the array of embeddings through TWO input windows. The proof data's arrays therefore hold that
  array twice, once per window, at two shares that compose to the full share, while the launch holds the five distinct
  buffers behind the six windows' arrays each whole at the full share. This module proves the two holdings equivalent
  at every valuation: the full share of the embeddings splits into its left and right halves and joins again.
-/
import proofs.«127936_j46145128629049_1_alg».proof.Proof.Gen.Kernel.Launch
import Idealize.ShloMosaic.Lib.Pipeline.Frame

noncomputable section

namespace Cert.Kernel.Fr

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window)
open Cert.Kernel Cert.Kernel.Gen

variable {F : FTy → Type} [FloatOps F]

local notation "𝕄" => MT nD τ sig Unit (Elt F) ℕ (UR sig nD τ) ℕ

/-- The buffers behind custom_call 0's arrays against the proof data's arrays. The six windows stand on FIVE distinct
    buffers: windows 0 and 1 both read the array of embeddings, windows 2, 3, 4 read an array each, window 5 writes the
    result. When windows 0 and 1 hold the left and the right half of the full share and windows 2, 3, 4 the full share
    (the output window holds the full share by definition), then, at any valuation, the five buffers each whole at the
    full share ARE the six windows' arrays: the embeddings' full share splits into its two halves, one for each window
    onto it, and the halves join to the full share again; every other buffer is its one window's array as it stands. -/
theorem arrays_iff {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare) (hq4 : dat.q 4 = fullShare)
    (W : Valuation τ sig (Elt F)) :
    (Pipeline.arrBufs spec0 c (fun b => W (Proc.devRef .tc b)) : sProp 𝕄) ⊣⊢ dat.arrays (fun w => W (Proc.devRef .tc (Pipeline.arrRef spec0 w))) := by
  -- the five distinct buffers, one by one
  have hL : (Pipeline.arrBufs spec0 c (fun b => W (Proc.devRef .tc b)) : sProp 𝕄)
      = iprop((((c.tc : Thread nD τ).loc main_v5) ↦{fullShare} W (Proc.devRef .tc main_v5))
          ∗ (((c.tc : Thread nD τ).loc main_v26) ↦{fullShare} W (Proc.devRef .tc main_v26))
          ∗ (((c.tc : Thread nD τ).loc main_v27) ↦{fullShare} W (Proc.devRef .tc main_v27))
          ∗ (((c.tc : Thread nD τ).loc main_v25) ↦{fullShare} W (Proc.devRef .tc main_v25))
          ∗ (((c.tc : Thread nD τ).loc main_v28) ↦{fullShare} W (Proc.devRef .tc main_v28))) := by
    unfold Pipeline.arrBufs
    exact (bigSep_eq_bigSepL_of_eq [main_v5, main_v26, main_v27, main_v25, main_v28] (by decide) (by decide) _).trans rfl
  -- each window's share: an input window's is the proof data's, the output window's the full share
  have hs0 : dat.share 0 = fullShare.left := hq0
  have hs1 : dat.share 1 = fullShare.right := hq1
  have hs2 : dat.share 2 = fullShare := hq2
  have hs3 : dat.share 3 = fullShare := hq3
  have hs4 : dat.share 4 = fullShare := hq4
  have hs5 : dat.share 5 = fullShare := rfl
  -- the six windows' arrays, one by one, each a whole buffer
  have hR : (dat.arrays (fun w => W (Proc.devRef .tc (Pipeline.arrRef spec0 w))) : sProp 𝕄)
      = iprop((((c.tc : Thread nD τ).loc main_v5) ↦{fullShare.left} W (Proc.devRef .tc main_v5))
          ∗ (((c.tc : Thread nD τ).loc main_v5) ↦{fullShare.right} W (Proc.devRef .tc main_v5))
          ∗ (((c.tc : Thread nD τ).loc main_v26) ↦{fullShare} W (Proc.devRef .tc main_v26))
          ∗ (((c.tc : Thread nD τ).loc main_v27) ↦{fullShare} W (Proc.devRef .tc main_v27))
          ∗ (((c.tc : Thread nD τ).loc main_v25) ↦{fullShare} W (Proc.devRef .tc main_v25))
          ∗ (((c.tc : Thread nD τ).loc main_v28) ↦{fullShare} W (Proc.devRef .tc main_v28))) := by
    have hwhole : (dat.arrays (fun w => W (Proc.devRef .tc (Pipeline.arrRef spec0 w))) : sProp 𝕄)
        = bigSep Finset.univ fun w : Fin 6 =>
            (((c.tc : Thread nD τ).loc (Pipeline.arrRef spec0 w)) ↦{dat.share w} W (Proc.devRef .tc (Pipeline.arrRef spec0 w)) : sProp 𝕄) := by
      unfold Dat.arrays
      exact bigSep_congr fun w _ => by rw [(arr_whole0 w).set_eq_univ]
    rw [hwhole, bigSep_W0, hs0, hs1, hs2, hs3, hs4, hs5]
  rw [hL, hR]
  constructor
  · iintro ⟨H5, H26, H27, H25, H28⟩
    ihave H5' := (pointsTo_share (PosShare.mem_left_op_right fullShare)).mp $$ H5
    icases H5' with ⟨H5l, H5r⟩
    isplitl [H5l]; · iexact H5l
    isplitl [H5r]; · iexact H5r
    isplitl [H26]; · iexact H26
    isplitl [H27]; · iexact H27
    isplitl [H25]; · iexact H25
    iexact H28
  · iintro ⟨H5l, H5r, H26, H27, H25, H28⟩
    isplitl [H5l H5r]
    · iapply (pointsTo_share (PosShare.mem_left_op_right fullShare)).mpr
      isplitl [H5l]; · iexact H5l
      iexact H5r
    isplitl [H26]; · iexact H26
    isplitl [H27]; · iexact H27
    isplitl [H25]; · iexact H25
    iexact H28

end Cert.Kernel.Fr
-- ==== Proof.LibSharedLaunch.lean ====
/-
  A frame run for "host lines; one kernel region; host lines" whose pipeline windows may SHARE an array.

  The library's frame run around a region asks that the windows' arrays be pairwise distinct buffers. It uses that
  in three places only: to deal the arrays' buffers to the windows at the region's entry, to gather them again at
  its exit (so that the later host lines may run within all the unscoped buffers), and to name the buffers' contents
  after those lines. Here those three uses are replaced by one hypothesis: at every valuation, the distinct buffers
  behind the arrays, each whole at the full share, are exactly the proof data's arrays at that valuation. For
  distinct arrays that is an equation; for an array read through several input windows it is the splitting and the
  joining of the buffer's share among those windows.
-/
import Idealize.ShloMosaic.Lib.Pipeline.FrameSuffix

noncomputable section

namespace Cert.Lib.SharedLaunch

open Idealize Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- THE FRAME RUN AROUND A REGION WHOSE WINDOWS MAY SHARE ARRAYS. @main is host lines, one kernel region, then the
    host lines 'opss' ('hmain': it reduces to the region continued by those lines, the unscoped buffers at 'V₀').

    Assumed of the layout: the program's staging cells are pairwise distinct ('hcell'); the windows' arrays are
    unscoped, their staging buffers scoped and distinct, their semaphores scoped ('hw' — the arrays themselves need NOT
    be distinct buffers); no block is empty ('hpos'); every array and staging memref is a whole buffer ('harr',
    'hstage'). Assumed of the proof data: the body obligation at every point ('hbody'), nothing owed ('howed'), entry
    arrays read off 'V₀' ('hA'), and an invariant the class invariant yields before point 0 and that yields it back after
    the last point ('hin', 'hout').

    In place of distinctness, 'hiff': at EVERY valuation 'W', the distinct buffers behind the arrays, each whole at the
    full share at 'W', are exactly the proof data's 'arrays' at 'W' read through each window — both directions. (For
    distinct arrays held at the full share this is an equation; for an array read through several input windows it is
    the splitting and the joining of the buffer's share among them.) It is used at three valuations: the entry contents
    'V₀', the exit contents 'W₁', and the contents after the later lines.

    'W₁' names the contents at the region's exit: each array at its final contents ('hW₁arr'), every bypassing buffer
    as at entry ('hW₁rest'). The later lines touch TensorCore references only ('hsub'), allocate nothing ('hfresh')
    and write no array ('hkeep').

    Concluded: every weakly fair run of @main terminates, and in every final state each window's array holds its
    final contents 'arrAt w N' and every bypassing buffer holds the later lines' 'StableHlo.after' from 'W₁'. -/
theorem θ_run_frame_around_track_shared
    (cfgs : P → Cfg sig Λ₀)
    (dats : (p : P) → (c : Dev nD) → Dat τ Val Unit ℕ (UR sig nD τ) ℕ (cfgs p) c) (p : P)
    (hcell : Function.Injective (cellOf (nD := nD) (τ := τ) cfgs))
    (hw : WinFacts₀ (cfgs p).spec)
    (hpos : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hiff : ∀ c (W : Valuation τ sig Val),
      (arrBufs (cfgs p).spec c (fun b => W (Proc.devRef .tc b)) : sProp 𝕄)
        ⊣⊢ (dats p c).arrays (fun w => W (Proc.devRef .tc (arrRef (cfgs p).spec w))))
    (hA : ∀ c w, (dats p c).A w = V₀ c (Proc.devRef .tc (arrRef (cfgs p).spec w)))
    (W₁ : Dev nD → Valuation τ sig Val)
    (hW₁arr : ∀ c w, W₁ c (Proc.devRef .tc (arrRef (cfgs p).spec w)) = (dats p c).arrAt w (cfgs p).N)
    (hW₁rest : ∀ c, ∀ b ∈ restRefs sig (cfgs p).spec, W₁ c (Proc.devRef .tc b) = V₀ c (Proc.devRef .tc b))
    (hkeep : ∀ ops ∈ opss, ∀ op ∈ ops, ∀ w, Proc.devRef .tc (arrRef (cfgs p).spec w) ∉ op.writes)
    (hin : ∀ c, ΦA (cfgs p).spec c ⊢ (dats p c).Φ 0) (hout : ∀ c, (dats p c).Φ (Fin.last (cfgs p).N) ⊢ ΦA (cfgs p).spec c) :
    θ_run (Pipeline.defs (fun q => Cfg.toPCfg (Val := Val) (cfgs q)) defs₀) (onTc main) (s₀ m g)
      (fun r => ∀ c : Dev nD,
        (∀ w, r.2.mem (((cfgs p).spec w).arr.view.loc (c.tc : Thread nD τ)) = (dats p c).arrAt w (cfgs p).N)
        ∧ ∀ b ∈ restRefs sig (cfgs p).spec, r.2.mem ((c.tc : Thread nD τ).loc b) = StableHlo.after opss.flatten (W₁ c) (Proc.devRef .tc b)) := by
  classical
  -- the bypassing buffers read the valuation only off the array-free references
  have hrestW : ∀ c, (unscopedRest (Ix := Unit) (Name := ℕ) (U := UR sig nD τ) (Lvl := ℕ) (cfgs p).spec c (fun b => V₀ c (Proc.devRef .tc b)) : sProp 𝕄)
      = unscopedRest (cfgs p).spec c (fun b => W₁ c (Proc.devRef .tc b)) := fun c => by
    unfold unscopedRest
    exact bigSep_congr fun b hb => by beta_reduce; rw [hW₁rest c b hb]
  -- the buffers at the region's exit, gathered: the arrays at their final contents and the bypassing buffers as at entry
  -- are all the unscoped buffers held at the exit valuation
  have hgather : ∀ c, iprop((dats p c).arrays ((dats p c).arrAt · (cfgs p).N)
        ∗ unscopedRestP (Ix := Unit) (Name := ℕ) (U := UR sig nD τ) (Lvl := ℕ) Prefetch.none (cfgs p).spec c (fun b => V₀ c (Proc.devRef .tc b)))
      ⊢ (StableHlo.held (c.tc : Thread nD τ) (ucRefs τ sig) (W₁ c) : sProp 𝕄) := by
    intro c
    rw [← unscopedBufs_held (Ix := Unit) (Name := ℕ) (U := UR sig nD τ) (Lvl := ℕ) c (W₁ c),
      Pipeline.unscopedBufs_split₀ cfgs p hw.arr_unscoped c, unscopedRestP_none, hrestW c,
      show ((dats p c).arrAt · (cfgs p).N) = fun w => W₁ c (Proc.devRef .tc (arrRef (cfgs p).spec w)) from
        funext fun w => (hW₁arr c w).symm]
    iintro ⟨HA, HZ⟩
    isplitl [HA]
    · iapply (hiff c (W₁ c)).mpr; iexact HA
    · iexact HZ
  -- and dealt again after the lines, which write no array
  have hdeal : ∀ c, (StableHlo.held (c.tc : Thread nD τ) (ucRefs τ sig) (StableHlo.after opss.flatten (W₁ c)) : sProp 𝕄)
      ⊢ iprop((dats p c).arrays ((dats p c).arrAt · (cfgs p).N)
        ∗ unscopedRestP (Ix := Unit) (Name := ℕ) (U := UR sig nD τ) (Lvl := ℕ) Prefetch.none (cfgs p).spec c
            (fun b => StableHlo.after opss.flatten (W₁ c) (Proc.devRef .tc b))) := by
    intro c
    rw [← unscopedBufs_held (Ix := Unit) (Name := ℕ) (U := UR sig nD τ) (Lvl := ℕ) c (StableHlo.after opss.flatten (W₁ c)),
      Pipeline.unscopedBufs_split₀ cfgs p hw.arr_unscoped c, unscopedRestP_none,
      show ((dats p c).arrAt · (cfgs p).N) = fun w => StableHlo.after opss.flatten (W₁ c) (Proc.devRef .tc (arrRef (cfgs p).spec w)) from
        funext fun w => by
          rw [StableHlo.after_of_forall_not_mem _ _ fun op hop => ?_, hW₁arr c w]
          obtain ⟨ops, hops, hop'⟩ := List.mem_flatten.mp hop
          exact hkeep ops hops op hop' w]
    iintro ⟨HA, HZ⟩
    isplitl [HA]
    · iapply (hiff c (StableHlo.after opss.flatten (W₁ c))).mp; iexact HA
    · iexact HZ
  exact θ_run_region_pf_tail (fun q => (cfgs q).toPCfg (Val := Val)) (fun q => (cfgs q).toPCfg_adm) dats () hcell p hw
    (OwnSemFacts.none (cfgs p).spec) (PreFacts.none _) emb₁ defs₀ 𝒱₀ m g main
    (fun _ => chain (opss.map StableHlo.seq)) hbody hpos harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => (hiff c (V₀ c)).mp.trans
      (Entails.of_eq (congrArg (dats p c).arrays (funext fun w => (hA c w).symm))))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (fun b => V₀ c (Proc.devRef .tc b)))
    (Z' := fun c => unscopedRestP (Ix := Unit) (Name := ℕ) (U := UR sig nD τ) (Lvl := ℕ) Prefetch.none (cfgs p).spec c
      (fun b => StableHlo.after opss.flatten (W₁ c) (Proc.devRef .tc b)))
    (hX := fun c => by
      iintro ⟨HU, -, -, -, Hp, -⟩; imodintro
      isplitl [Hp]; · iexists _; iexact Hp
      iexact HU)
    (hin := fun c => (show _ ⊢ ΦA (cfgs p).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      rw [← List.append_nil (opss.map StableHlo.seq)]
      iintro ⟨Hk, Hb, HA, HZ⟩
      iapply (wp_seqs_then (fun q => (cfgs q).toPCfg (Val := Val)) defs₀ 𝒱₀ c (ucRefs τ sig) [] opss
        (fun ops ho op h => sub_ucRefs op (hsub ops ho op h)) hfresh (W₁ c)) $$ [Hb HA HZ]
      · isplitl [Hb]; · iexact Hb
        iapply (hgather c)
        isplitl [HA]; · iexact HA
        iexact HZ
      iintro Hb
      rw [chain_nil, wp_pure]
      imodintro
      iapply Hk
      icases Hb with ⟨-, H⟩
      iapply (hdeal c); iexact H)
    (QY := fun c s => ∀ b ∈ restRefsP sig Prefetch.none (cfgs p).spec,
      s.mem ((c.tc : Thread nD τ).loc b) = StableHlo.after opss.flatten (W₁ c) (Proc.devRef .tc b))
    (hY := fun c s' => by
      iintro ⟨-, HU, HSI⟩
      unfold unscopedRestP
      imodintro
      iapply (pointsTo_read_all (restRefsP sig Prefetch.none (cfgs p).spec) (fun b => (c.tc : Thread nD τ).loc b)
        (fun b => StableHlo.after opss.flatten (W₁ c) (Proc.devRef .tc b)) s')
      isplitl [HU] <;> iassumption)
    (hQ := fun s h c => ⟨(h c).1, rest_of_restP Prefetch.none (cfgs p).spec (cfgs p).toPCfg_adm.1 c
      (fun b => StableHlo.after opss.flatten (W₁ c) (Proc.devRef .tc b)) s (fun k => k.elim0) (h c).2.1 (h c).2.2⟩)

end Cert.Lib.SharedLaunch
-- ==== Proof.BitsLaunch.lean ====
/-
  The run of the whole program, and its frame.

  The region's windows 0 and 1 both read the embeddings array, so the launch deals that buffer's share in two
  halves and joins them again at the region's exit; with that, every weakly fair run of the program ends, the
  output array at what the accumulation wrote block by block, every other buffer as the averaging lines leave it.
  None of those lines, and no host line before the region, writes an argument array: the frame.
-/
import proofs.«127936_j46145128629049_1_alg».proof.Proof.BitsBody
import proofs.«127936_j46145128629049_1_alg».proof.Proof.BitsShares
import proofs.«127936_j46145128629049_1_alg».proof.Proof.LibSharedLaunch

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore buffers at the region's exit: the output array at its final contents, everything else as at entry. -/
def W1 (c : Dev nD) : Valuation τ sig (Elt F) :=
  Function.update (V0 m c) (Proc.devRef .tc main_v28) ((dats m 0 c).arrAt 5 cfg0.N)

theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The averaging lines write only their own result buffers, none of which is an array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem W1_arr (c : Dev nD) (w : Fin cfg0.W) :
    W1 m c (Proc.devRef .tc (Pipeline.arrRef spec0 w)) = (dats m 0 c).arrAt w cfg0.N := by
  have hin : ∀ w : Fin cfg0.W, (cfg0.win w).isOut = false → Proc.devRef (τ := τ) .tc (Pipeline.arrRef spec0 w) ≠ Proc.devRef .tc main_v28 →
      W1 m c (Proc.devRef .tc (Pipeline.arrRef spec0 w)) = (dats m 0 c).arrAt w cfg0.N := fun w hw hne => by
    unfold W1
    rw [Function.update_of_ne hne, (dats m 0 c).arrAt_in w hw, A_eq]
  fin_cases w
  · exact hin 0 rfl (StableHlo.devRef_ne_of_ne (by decide))
  · exact hin 1 rfl (StableHlo.devRef_ne_of_ne (by decide))
  · exact hin 2 rfl (StableHlo.devRef_ne_of_ne (by decide))
  · exact hin 3 rfl (StableHlo.devRef_ne_of_ne (by decide))
  · exact hin 4 rfl (StableHlo.devRef_ne_of_ne (by decide))
  · exact Function.update_self _ _ _

theorem W1_rest (c : Dev nD) : ∀ b ∈ Pipeline.restRefs sig spec0, W1 m c (Proc.devRef .tc b) = V0 m c (Proc.devRef .tc b) := by
  intro b hb
  unfold W1
  refine Function.update_of_ne (fun e => ?_) _ _
  have hb' : b = main_v28 := Proc.devRef_injective (τ := τ) _ e
  subst hb'
  simp only [Pipeline.restRefs, Finset.mem_sdiff, Finset.mem_image, Finset.mem_univ, true_and, not_exists] at hb
  exact hb.2 5 rfl

-- the launch theorem's implicit arguments are found by unifying its conclusion with this one
set_option backward.isDefEq.respectTransparency.types false in
/-- Every weakly fair run of the program terminates; in every final state each window's array holds its final
    contents and every other unscoped buffer what the averaging lines leave from the region's exit. -/
theorem run_main : θ_run defs (onTc (τ := τ) (main (F := F))) (s₀ m ρ)
    (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after [hostOps1].flatten (W1 m c) (Proc.devRef .tc b)) :=
  Cert.Lib.SharedLaunch.θ_run_frame_around_track_shared cfgs (dats m) (0 : Fin 1) cellOf_inj winFacts₀0 block_pos0 arr_whole0 stage_whole0
    defs₀ Variants.none m ρ main (fun c => (body_obligation m c).loose) (fun _ _ => rfl) (V0 m) [hostOps1] sfx_sub sfx_fresh
    (hmain m Variants.none) (fun c W => arrays_iff (dats m 0 c) rfl rfl rfl rfl rfl W) (A_eq m) (W1 m) (W1_arr m) (W1_rest m)
    sfx_keeps (hin m) (hout m)

/-- An argument array is no array of the region and is written by no host line: it ends as launched. -/
theorem kept_of (c : Dev nD) (b : Ref sig .tc) (hb : Proc.devRef (τ := τ) .tc b ≠ Proc.devRef .tc main_v28)
    (hw : ∀ op ∈ [hostOps1 (F := F)].flatten, Proc.devRef .tc b ∉ op.writes) (hV : V m c b = m ((c : Thread nD τ).loc b)) :
    StableHlo.after [hostOps1].flatten (W1 m c) (Proc.devRef .tc b) = m ((c : Thread nD τ).loc b) := by
  rw [StableHlo.after_of_forall_not_mem _ _ hw]
  unfold W1
  rw [Function.update_of_ne hb]
  exact hV

theorem tail_keeps (b : Ref sig .tc) (h5 : b ≠ main_v29) (h6 : b ≠ main_cst_5) (h7 : b ≠ main_v30) (h8 : b ≠ main_cst_6) (h9 : b ≠ main_v31) :
    ∀ op ∈ [hostOps1 (F := F)].flatten, Proc.devRef (τ := τ) .tc b ∉ op.writes := by
  intro op hop
  simp only [hostOps1, List.flatten_cons, List.flatten_nil, List.append_nil, List.mem_cons, List.mem_nil_iff, or_false] at hop
  rcases hop with rfl | rfl | rfl | rfl | rfl <;>
    simp only [StableHlo.nullary_writes, StableHlo.unary_writes, StableHlo.binary_writes, StableHlo.reshape_writes, Finset.mem_singleton] <;>
    exact StableHlo.devRef_ne_of_ne (by assumption)

/-- THE FRAME: the program runs to the end, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans
        (kept_of m c main_arg0 (StableHlo.devRef_ne_of_ne (by decide)) (tail_keeps main_arg0 (by decide) (by decide) (by decide) (by decide) (by decide)) (V_main_arg0 m c)),
     ((h c).2 main_arg1 (Pipeline.mem_restRefs_of main_arg1 (by decide) (by decide))).trans
        (kept_of m c main_arg1 (StableHlo.devRef_ne_of_ne (by decide)) (tail_keeps main_arg1 (by decide) (by decide) (by decide) (by decide) (by decide)) (V_main_arg1 m c)),
     ((h c).2 main_arg2 (Pipeline.mem_restRefs_of main_arg2 (by decide) (by decide))).trans
        (kept_of m c main_arg2 (StableHlo.devRef_ne_of_ne (by decide)) (tail_keeps main_arg2 (by decide) (by decide) (by decide) (by decide) (by decide)) (V_main_arg2 m c))⟩)
    (run_main m ρ)

end Cert.Kernel.Fr

end
-- ==== Proof.IdealSetup.lean ====
/-
  The similarity-margin kernel on its 32 × 8 grid: what every later module is stated over.

  The program runs the host lines that normalise the rows and gather the thresholds, then ONE kernel region over
  grid points t = 8·i + j (row tile i of 512 rows, column tile j of 2048 columns), then the host lines that average
  the region's result. Here: the buffers' contents when the region is entered (the host lines' result), the
  block each window holds at a point, the two branch conditions of the body in closed form (the accumulator is
  zeroed where j = 0, the output tile stored where j = 7), and where the output window is idle.
-/
import proofs.«127936_j46145128629049_1_alg».proof.Proof.Gen.KernelIdeal.Launch
import proofs.«127936_j46145128629049_1_alg».proof.Proof.Gen.KernelIdeal.Skeleton
import proofs.«127936_j46145128629049_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The TensorCore buffers of core `c` after the host lines before the region: the row norms, the normalised
    rows, the gathered thresholds and the two reshapes of the labels, computed from the launch contents `m`. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the two stretches of host lines, the region, the averaging lines. So from the launch it
    reduces to the region continued by the averaging lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- No host line before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it: rows 512·i … of the embeddings,
    the row labels and the thresholds (windows 0, 2, 4), rows 2048·j … of the embeddings (window 1), columns
    2048·j … of the column labels (window 3). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is `V`'s and whose body leaves the block in place: where the pipeline does not fetch, the
    block index has not moved. One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, in closed form -/

/-- The accumulator is zeroed where the column-tile coordinate is 0, -/
abbrev condFirst (i : grid0.Coords) : Prop := (Scalar.cmpi .ne (Scalar.extui (Scalar.cmpi .eq (BitVec.ofNat 32 (i 1).val) 0#32)) 0#32) = 1#1
/-- which are the points ≡ 0 (mod 8); -/
theorem hcondFirst : ∀ t : Fin cfg0.N, condFirst (grid0.coords t) ↔ t.val % 8 = 0 :=
  (by decide +kernel : ∀ t : Fin grid0.N, condFirst (grid0.coords t) ↔ t.val % 8 = 0)

/-- the output tile is stored where the column-tile coordinate is 7, -/
abbrev condLast (i : grid0.Coords) : Prop := k0_cond2 i = 1#1
/-- which are the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem liveAt_in0 : ∀ t : Fin cfg0.N, cfg0.idle 0 (grid0.coords t) = false := by decide +kernel
theorem liveAt_in1 : ∀ t : Fin cfg0.N, cfg0.idle 1 (grid0.coords t) = false := by decide +kernel
theorem liveAt_in2 : ∀ t : Fin cfg0.N, cfg0.idle 2 (grid0.coords t) = false := by decide +kernel
theorem liveAt_in3 : ∀ t : Fin cfg0.N, cfg0.idle 3 (grid0.coords t) = false := by decide +kernel
theorem liveAt_in4 : ∀ t : Fin cfg0.N, cfg0.idle 4 (grid0.coords t) = false := by decide +kernel
/-- Away from the last column tile the body stores nothing into the output window and the pipeline does not write it back. -/
theorem idleAt_out : ∀ t : Fin cfg0.N, ¬condLast (grid0.coords t) → cfg0.idle 5 (grid0.coords t) = true := by decide +kernel
theorem noFlush_out : ∀ t : Fin cfg0.N, ¬condLast (grid0.coords t) → (cfg0.win 5).flush t = false := by decide +kernel
/-- At the last column tile the output window is live. -/
theorem liveAt_out : ∀ t : Fin cfg0.N, condLast (grid0.coords t) → cfg0.idle 5 (grid0.coords t) = false := by decide +kernel

/-! ## The memrefs the body is called with -/

abbrev msRow (t : Fin cfg0.N) : Memref sig .tc .vmem S512x256 .bf16 := win0_0.stage (cfg0.slots t 0)
abbrev hsRow (t : Fin cfg0.N) : (msRow t).IsWhole := hstage0_0 ((cfg0.slots t 0).cast nbuf0_0)
abbrev msCol (t : Fin cfg0.N) : Memref sig .tc .vmem S2048x256 .bf16 := win0_1.stage (cfg0.slots t 1)
abbrev hsCol (t : Fin cfg0.N) : (msCol t).IsWhole := hstage0_1 ((cfg0.slots t 1).cast nbuf0_1)
abbrev msTRow (t : Fin cfg0.N) : Memref sig .tc .vmem S512x1 .i32 := win0_2.stage (cfg0.slots t 2)
abbrev hsTRow (t : Fin cfg0.N) : (msTRow t).IsWhole := hstage0_2 ((cfg0.slots t 2).cast nbuf0_2)
abbrev msTCol (t : Fin cfg0.N) : Memref sig .tc .vmem S1x2048 .i32 := win0_3.stage (cfg0.slots t 3)
abbrev hsTCol (t : Fin cfg0.N) : (msTCol t).IsWhole := hstage0_3 ((cfg0.slots t 3).cast nbuf0_3)
abbrev msThr (t : Fin cfg0.N) : Memref sig .tc .vmem S512x1 .f32 := win0_4.stage (cfg0.slots t 4)
abbrev hsThr (t : Fin cfg0.N) : (msThr t).IsWhole := hstage0_4 ((cfg0.slots t 4).cast nbuf0_4)
abbrev msOut (t : Fin cfg0.N) : Memref sig .tc .vmem S512x1 .f32 := win0_5.stage (cfg0.slots t 5)
abbrev hsOut (t : Fin cfg0.N) : (msOut t).IsWhole := hstage0_5 ((cfg0.slots t 5).cast nbuf0_5)
/-- The running row maximum lives in the kernel's own scratch buffer, carried from point to point. -/
abbrev accM : Memref sig .tc .vmem S512x1 .f32 := Memref.whole cc0_scratch0
/-- One staging buffer of the output window and the scratch as views, through which contents are stated. -/
abbrev VOut : View sig .tc .vmem S512x1 .f32 := (Memref.whole cc0_stg5_0 : Memref sig .tc .vmem S512x1 .f32).view
abbrev VAcc : View sig .tc .vmem S512x1 .f32 := accM.view

/-- What the region may use freely: the scratch at some contents and the generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Fr

end
-- ==== Proof.IdealRunFirst.lean ====
/-
  The body at a point of the FIRST column tile (j = 0): the running row maximum is reset to zero, the tile's
  row maxima are folded in, nothing is stored into the output window. Run symbolically on whole staging
  buffers holding the five input blocks; the stores the scratch buffer ends with are found by the run.
-/
import proofs.«127936_j46145128629049_1_alg».proof.Proof.IdealSetup

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At j = 0: from the inputs' buffers at their blocks, the output window's buffer at anything (handed back
    untouched) and the scratch at anything, the body runs to the same with the scratch overwritten by the
    pieces `LS` the run finds (the reset, then the fold of this tile's maxima). -/
noncomputable def runFirst (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : condFirst i) (hc1 : ¬condLast i)
    (x0 : Vec F S512x256 .bf16) (x1 : Vec F S2048x256 .bf16) (x2 : Vec F S512x1 .i32) (x3 : Vec F S1x2048 .i32) (x4 : Vec F S512x1 .f32) :
    { LS : List (View.Piece (Elt F) S512x1 .f32) //
      ∀ (xo : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨?_, fun xo E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Fr

end
-- ==== Proof.IdealRunMid.lean ====
/-
  The body at a point of a MIDDLE column tile (0 < j < 7): the tile's row maxima are folded into the running
  maximum the point before left in the scratch buffer; nothing is stored into the output window.
-/
import proofs.«127936_j46145128629049_1_alg».proof.Proof.IdealRunFirst

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At 0 < j < 7: from the inputs' buffers at their blocks, the output window's buffer at anything (handed back
    untouched) and the scratch at `xs`, the body runs to the same with the scratch overwritten by the pieces
    `LS` the run finds (the fold of this tile's maxima into `xs`). -/
noncomputable def runMid (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : ¬condLast i)
    (x0 : Vec F S512x256 .bf16) (x1 : Vec F S2048x256 .bf16) (x2 : Vec F S512x1 .i32) (x3 : Vec F S1x2048 .i32) (x4 : Vec F S512x1 .f32) (xs : Vec F S512x1 .f32) :
    { LS : List (View.Piece (Elt F) S512x1 .f32) //
      ∀ (xo : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨?_, fun xo E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Fr

end
-- ==== Proof.IdealRunLast.lean ====
/-
  The body at a point of the LAST column tile (j = 7): the tile's row maxima are folded into the running
  maximum, and the result — the row maxima over all eight column tiles — is stored into the output window.
-/
import proofs.«127936_j46145128629049_1_alg».proof.Proof.IdealRunMid

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At j = 7: from the inputs' buffers at their blocks, the output window's buffer at anything and the scratch at
    `xs`, the body runs to the inputs as they were, the output window's buffer overwritten by the pieces `LO` and
    the scratch by the pieces `LS` the run finds. -/
noncomputable def runLast (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : condLast i)
    (x0 : Vec F S512x256 .bf16) (x1 : Vec F S2048x256 .bf16) (x2 : Vec F S512x1 .i32) (x3 : Vec F S1x2048 .i32) (x4 : Vec F S512x1 .f32) (xs : Vec F S512x1 .f32) :
    Σ' (LO : List (View.Piece (Elt F) S512x1 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Fr

end
-- ==== Proof.IdealData.lean ====
/-
  The accumulation, point by point, and the region's proof data.

  After the body at point t = 8·i + j the scratch buffer holds the running row maximum of row tile i over the
  column tiles 0 … j (reset at j = 0), and at j = 7 the output window's buffer holds it too. Each is read off
  the stores the body's symbolic runs found; the recursion over the points threads what the point before left.
  The proof data of the region: every input window's buffer holds its block, the output window's what this
  recursion says, the region invariant carries the scratch at the recursion's value from the second point on.
-/
import proofs.«127936_j46145128629049_1_alg».proof.Proof.IdealRunLast

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves -/

theorem coverAccFirst (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : condFirst i) (hc1 : ¬condLast i)
    (x0 : Vec F S512x256 .bf16) (x1 : Vec F S2048x256 .bf16) (x2 : Vec F S512x1 .i32) (x3 : Vec F S1x2048 .i32) (x4 : Vec F S512x1 .f32) (y : S512x1.Idx) :
    ∃ pc ∈ (runFirst c i arg2 harg2 arg3 harg3 arg4 harg4 arg5 harg5 arg6 harg6 arg7 harg7 arg8 harg8 hc0 hc1 x0 x1 x2 x3 x4).1, y ∈ pc.1.set :=
  View.cover_of_tiledL (runFirst c i arg2 harg2 arg3 harg3 arg4 harg4 arg5 harg5 arg6 harg6 arg7 harg7 arg8 harg8 hc0 hc1 x0 x1 x2 x3 x4).1 S512x1.size (by sl_kernel_rfl) y

/-- The scratch after a point of the first column tile: its stores read back. -/
def accFirst (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : condFirst i) (hc1 : ¬condLast i)
    (x0 : Vec F S512x256 .bf16) (x1 : Vec F S2048x256 .bf16) (x2 : Vec F S512x1 .i32) (x3 : Vec F S1x2048 .i32) (x4 : Vec F S512x1 .f32) : Vec F S512x1 .f32 :=
  VAcc.read (Elt F) (VAcc.writes (Elt F) VAcc.junk (runFirst c i arg2 harg2 arg3 harg3 arg4 harg4 arg5 harg5 arg6 harg6 arg7 harg7 arg8 harg8 hc0 hc1 x0 x1 x2 x3 x4).1)

theorem coverAccMid (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : ¬condLast i)
    (x0 : Vec F S512x256 .bf16) (x1 : Vec F S2048x256 .bf16) (x2 : Vec F S512x1 .i32) (x3 : Vec F S1x2048 .i32) (x4 : Vec F S512x1 .f32) (xs : Vec F S512x1 .f32) (y : S512x1.Idx) :
    ∃ pc ∈ (runMid c i arg2 harg2 arg3 harg3 arg4 harg4 arg5 harg5 arg6 harg6 arg7 harg7 arg8 harg8 hc0 hc1 x0 x1 x2 x3 x4 xs).1, y ∈ pc.1.set :=
  View.cover_of_tiledL (runMid c i arg2 harg2 arg3 harg3 arg4 harg4 arg5 harg5 arg6 harg6 arg7 harg7 arg8 harg8 hc0 hc1 x0 x1 x2 x3 x4 xs).1 S512x1.size (by sl_kernel_rfl) y

/-- The scratch after a point of a middle column tile, over what the point before left (`xs`). -/
def accMid (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : ¬condLast i)
    (x0 : Vec F S512x256 .bf16) (x1 : Vec F S2048x256 .bf16) (x2 : Vec F S512x1 .i32) (x3 : Vec F S1x2048 .i32) (x4 : Vec F S512x1 .f32) (xs : Vec F S512x1 .f32) : Vec F S512x1 .f32 :=
  VAcc.read (Elt F) (VAcc.writes (Elt F) VAcc.junk (runMid c i arg2 harg2 arg3 harg3 arg4 harg4 arg5 harg5 arg6 harg6 arg7 harg7 arg8 harg8 hc0 hc1 x0 x1 x2 x3 x4 xs).1)

theorem coverOutLast (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : condLast i)
    (x0 : Vec F S512x256 .bf16) (x1 : Vec F S2048x256 .bf16) (x2 : Vec F S512x1 .i32) (x3 : Vec F S1x2048 .i32) (x4 : Vec F S512x1 .f32) (xs : Vec F S512x1 .f32) (y : S512x1.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S512x1.size (by sl_kernel_rfl) y

/-- The output window's buffer after a point of the last column tile. -/
def outLast (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : condLast i)
    (x0 : Vec F S512x256 .bf16) (x1 : Vec F S2048x256 .bf16) (x2 : Vec F S512x1 .i32) (x3 : Vec F S1x2048 .i32) (x4 : Vec F S512x1 .f32) (xs : Vec F S512x1 .f32) : Vec F S512x1 .f32 :=
  VOut.read (Elt F) (VOut.writes (Elt F) VOut.junk (runLast c i arg2 harg2 arg3 harg3 arg4 harg4 arg5 harg5 arg6 harg6 arg7 harg7 arg8 harg8 hc0 hc1 x0 x1 x2 x3 x4 xs).1)

theorem coverAccLast (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : condLast i)
    (x0 : Vec F S512x256 .bf16) (x1 : Vec F S2048x256 .bf16) (x2 : Vec F S512x1 .i32) (x3 : Vec F S1x2048 .i32) (x4 : Vec F S512x1 .f32) (xs : Vec F S512x1 .f32) (y : S512x1.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S512x1.size (by sl_kernel_rfl) y

/-- The scratch after a point of the last column tile. -/
def accLast (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : condLast i)
    (x0 : Vec F S512x256 .bf16) (x1 : Vec F S2048x256 .bf16) (x2 : Vec F S512x1 .i32) (x3 : Vec F S1x2048 .i32) (x4 : Vec F S512x1 .f32) (xs : Vec F S512x1 .f32) : Vec F S512x1 .f32 :=
  VAcc.read (Elt F) (VAcc.writes (Elt F) VAcc.junk (runLast c i arg2 harg2 arg3 harg3 arg4 harg4 arg5 harg5 arg6 harg6 arg7 harg7 arg8 harg8 hc0 hc1 x0 x1 x2 x3 x4 xs).2.1)

/-! ## The same at a grid point's own memrefs and blocks -/

/-- The scratch after point `t` when `t` is in the first column tile. -/
abbrev accFirstAt (c : Dev nD) (t : Fin cfg0.N) (h0 : t.val % 8 = 0) (h1 : ¬t.val % 8 = 7) : Vec F S512x1 .f32 :=
  accFirst c (grid0.coords t) (msRow t) (hsRow t) (msCol t) (hsCol t) (msTRow t) (hsTRow t) (msTCol t) (hsTCol t) (msThr t) (hsThr t) (msOut t) (hsOut t) accM (Memref.isWhole_whole _) ((hcondFirst t).mpr h0) (fun h => h1 ((hcondLast t).mp h)) (iblk m c 0 t) (iblk m c 1 t) (iblk m c 2 t) (iblk m c 3 t) (iblk m c 4 t)
/-- The scratch after point `t` in a middle column tile, over `xs`. -/
abbrev accMidAt (c : Dev nD) (t : Fin cfg0.N) (h0 : ¬t.val % 8 = 0) (h1 : ¬t.val % 8 = 7) (xs : Vec F S512x1 .f32) : Vec F S512x1 .f32 :=
  accMid c (grid0.coords t) (msRow t) (hsRow t) (msCol t) (hsCol t) (msTRow t) (hsTRow t) (msTCol t) (hsTCol t) (msThr t) (hsThr t) (msOut t) (hsOut t) accM (Memref.isWhole_whole _) (fun h => h0 ((hcondFirst t).mp h)) (fun h => h1 ((hcondLast t).mp h)) (iblk m c 0 t) (iblk m c 1 t) (iblk m c 2 t) (iblk m c 3 t) (iblk m c 4 t) xs
/-- The output buffer and the scratch after point `t` in the last column tile, over `xs`. -/
abbrev outLastAt (c : Dev nD) (t : Fin cfg0.N) (h0 : ¬t.val % 8 = 0) (h1 : t.val % 8 = 7) (xs : Vec F S512x1 .f32) : Vec F S512x1 .f32 :=
  outLast c (grid0.coords t) (msRow t) (hsRow t) (msCol t) (hsCol t) (msTRow t) (hsTRow t) (msTCol t) (hsTCol t) (msThr t) (hsThr t) (msOut t) (hsOut t) accM (Memref.isWhole_whole _) (fun h => h0 ((hcondFirst t).mp h)) ((hcondLast t).mpr h1) (iblk m c 0 t) (iblk m c 1 t) (iblk m c 2 t) (iblk m c 3 t) (iblk m c 4 t) xs
abbrev accLastAt (c : Dev nD) (t : Fin cfg0.N) (h0 : ¬t.val % 8 = 0) (h1 : t.val % 8 = 7) (xs : Vec F S512x1 .f32) : Vec F S512x1 .f32 :=
  accLast c (grid0.coords t) (msRow t) (hsRow t) (msCol t) (hsCol t) (msTRow t) (hsTRow t) (msTCol t) (hsTCol t) (msThr t) (hsThr t) (msOut t) (hsOut t) accM (Memref.isWhole_whole _) (fun h => h0 ((hcondFirst t).mp h)) ((hcondLast t).mpr h1) (iblk m c 0 t) (iblk m c 1 t) (iblk m c 2 t) (iblk m c 3 t) (iblk m c 4 t) xs

/-! ## The accumulation -/

/-- What the output window's buffer (first component; meaningful only at the last column tile, where the body
    stores into it) and the scratch (second component) hold after the body at position `n`: the case the
    position is in, run at its memrefs and blocks, over what position `n - 1` left in the scratch. -/
def stateAt (c : Dev nD) : (n : ℕ) → n < cfg0.N → Vec F S512x1 .f32 × Vec F S512x1 .f32
  | 0, hn => (accFirstAt m c ⟨0, hn⟩ (Nat.zero_mod _) (fun h => absurd h (by simp)), accFirstAt m c ⟨0, hn⟩ (Nat.zero_mod _) (fun h => absurd h (by simp)))
  | n + 1, hn =>
    if h0 : (n + 1) % 8 = 0 then
      if h1 : (n + 1) % 8 = 7 then
        False.elim (by omega)
      else
        (accFirstAt m c ⟨n + 1, hn⟩ h0 h1, accFirstAt m c ⟨n + 1, hn⟩ h0 h1)
    else
      if h1 : (n + 1) % 8 = 7 then
        (outLastAt m c ⟨n + 1, hn⟩ h0 h1 (stateAt c n (Nat.lt_of_succ_lt hn)).2, accLastAt m c ⟨n + 1, hn⟩ h0 h1 (stateAt c n (Nat.lt_of_succ_lt hn)).2)
      else
        (accMidAt m c ⟨n + 1, hn⟩ h0 h1 (stateAt c n (Nat.lt_of_succ_lt hn)).2, accMidAt m c ⟨n + 1, hn⟩ h0 h1 (stateAt c n (Nat.lt_of_succ_lt hn)).2)

theorem stateAt_first (c : Dev nD) (t : Fin cfg0.N) (h0 : t.val % 8 = 0) (h1 : ¬t.val % 8 = 7) :
    stateAt m c t.val t.isLt = (accFirstAt m c t h0 h1, accFirstAt m c t h0 h1) := by
  obtain ⟨n, hn⟩ := t
  cases n with
  | zero => exact rfl
  | succ n => exact (dif_pos h0).trans ((dif_neg h1).trans rfl)

theorem stateAt_mid (c : Dev nD) (t : Fin cfg0.N) (h0 : ¬t.val % 8 = 0) (h1 : ¬t.val % 8 = 7) :
    stateAt m c t.val t.isLt = (accMidAt m c t h0 h1 (stateAt m c (t.val - 1) (Nat.lt_of_le_of_lt (Nat.sub_le _ _) t.isLt)).2,
      accMidAt m c t h0 h1 (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg0.N) (h0 : ¬t.val % 8 = 0) (h1 : t.val % 8 = 7) :
    stateAt m c t.val t.isLt = (outLastAt m c t h0 h1 (stateAt m c (t.val - 1) (Nat.lt_of_le_of_lt (Nat.sub_le _ _) t.isLt)).2,
      accLastAt m c t h0 h1 (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before the first point the scratch holds anything; before any later position `n` it holds what position
    `n - 1` left. The generator register is at some state throughout. -/
def PhiS (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((stateAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((stateAt m c (n - 1) (by omega)).2)) ∗ (∃ r, prngReg c r)) := by
  cases n with
  | zero => exact absurd rfl hz
  | succ n => rfl

/-! ## The proof data -/

/-- The region's proof data on core `c`. The two windows onto the embeddings each hold HALF of that array's share
    (both only read it); every other window's array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stateAt m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_out (c : Dev nD) (t : Fin cfg0.N) : (dats m 0 c).after 5 t = (stateAt m c t.val t.isLt).1 := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d

end Cert.KernelIdeal.Fr

end
-- ==== Proof.IdealBody.lean ====
/-
  The body obligation: at every grid point the kernel body, called on the windows' current staging buffers,
  turns what the region's proof data say it finds into what they say it leaves. Three cases by the column
  tile: first (the running maximum is reset, so whatever the scratch held is irrelevant), middle, and last
  (the output window is written). In each the symbolic run of that case applies; the scratch comes back at the
  accumulation's value because its stores cover it.
-/
import proofs.«127936_j46145128629049_1_alg».proof.Proof.IdealData

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (msRow t) fullShare ((dats m 0 c).before 0 t d))
    ∗ (∃ d, owns (c : Thread nD τ) (msCol t) fullShare ((dats m 0 c).before 1 t d))
    ∗ (∃ d, owns (c : Thread nD τ) (msTRow t) fullShare ((dats m 0 c).before 2 t d))
    ∗ (∃ d, owns (c : Thread nD τ) (msTCol t) fullShare ((dats m 0 c).before 3 t d))
    ∗ (∃ d, owns (c : Thread nD τ) (msThr t) fullShare ((dats m 0 c).before 4 t d))
    ∗ (∃ d, owns (c : Thread nD τ) (msOut t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (msRow t) fullShare ((dats m 0 c).after 0 t) from by
    unfold Dat.leavesExact; rw [liveAt_in0 t], after_in0]
  rw [show (dats m 0 c).leavesExact 1 t = owns (c : Thread nD τ) (msCol t) fullShare ((dats m 0 c).after 1 t) from by
    unfold Dat.leavesExact; rw [liveAt_in1 t], after_in1]
  rw [show (dats m 0 c).leavesExact 2 t = owns (c : Thread nD τ) (msTRow t) fullShare ((dats m 0 c).after 2 t) from by
    unfold Dat.leavesExact; rw [liveAt_in2 t], after_in2]
  rw [show (dats m 0 c).leavesExact 3 t = owns (c : Thread nD τ) (msTCol t) fullShare ((dats m 0 c).after 3 t) from by
    unfold Dat.leavesExact; rw [liveAt_in3 t], after_in3]
  rw [show (dats m 0 c).leavesExact 4 t = owns (c : Thread nD τ) (msThr t) fullShare ((dats m 0 c).after 4 t) from by
    unfold Dat.leavesExact; rw [liveAt_in4 t], after_in4]
  by_cases h0 : t.val % 8 = 0
  · have h1 : ¬t.val % 8 = 7 := by omega
    rw [Dat.leavesExact_idle (dats m 0 c) 5 t (idleAt_out t (fun h => h1 ((hcondLast t).mp h))) (noFlush_out t (fun h => h1 ((hcondLast t).mp h)))]
    rw [stateAt_first m c t h0 h1]
    unfold accFirstAt accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) (msRow t) (hsRow t) (msCol t) (hsCol t) (msTRow t) (hsTRow t) (msTCol t) (hsTCol t) (msThr t) (hsThr t) (msOut t) (hsOut t) accM (Memref.isWhole_whole _) ((hcondFirst t).mpr h0) (fun h => h1 ((hcondLast t).mp h)) (iblk m c 0 t) (iblk m c 1 t) (iblk m c 2 t) (iblk m c 3 t) (iblk m c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverAccFirst c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) (msRow t) (hsRow t) (msCol t) (hsCol t) (msTRow t) (hsTRow t) (msTCol t) (hsTCol t) (msThr t) (hsThr t) (msOut t) (hsOut t) accM (Memref.isWhole_whole _) ((hcondFirst t).mpr h0) (fun h => h1 ((hcondLast t).mp h)) (iblk m c 0 t) (iblk m c 1 t) (iblk m c 2 t) (iblk m c 3 t) (iblk m c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverAccFirst c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · rw [show (dats m 0 c).leavesExact 5 t = owns (c : Thread nD τ) (msOut t) fullShare ((dats m 0 c).after 5 t) from by
        unfold Dat.leavesExact; rw [liveAt_out t ((hcondLast t).mpr h1)], after_out]
      rw [stateAt_last m c t h0 h1]
      unfold outLastAt accLastAt outLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) (msRow t) (hsRow t) (msCol t) (hsCol t) (msTRow t) (hsTRow t) (msTCol t) (hsTCol t) (msThr t) (hsThr t) (msOut t) (hsOut t) accM (Memref.isWhole_whole _) (fun h => h0 ((hcondFirst t).mp h)) ((hcondLast t).mpr h1) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverAccLast c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverOutLast c _ _ _ _ _ _ _ _ _ _ _ _ _ _ _ _ _ _ _ _ _ _ _)
    · rw [Dat.leavesExact_idle (dats m 0 c) 5 t (idleAt_out t (fun h => h1 ((hcondLast t).mp h))) (noFlush_out t (fun h => h1 ((hcondLast t).mp h)))]
      rw [stateAt_mid m c t h0 h1]
      unfold accMidAt accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runMid c (grid0.coords t) (msRow t) (hsRow t) (msCol t) (hsCol t) (msTRow t) (hsTRow t) (msTCol t) (hsTCol t) (msThr t) (hsThr t) (msOut t) (hsOut t) accM (Memref.isWhole_whole _) (fun h => h0 ((hcondFirst t).mp h)) (fun h => h1 ((hcondLast t).mp h)) (iblk m c 0 t) (iblk m c 1 t) (iblk m c 2 t) (iblk m c 3 t) (iblk m c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverAccMid c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

end Cert.KernelIdeal.Fr

end
-- ==== Proof.IdealShares.lean ====
/-
  custom_call 0 reads the array of embeddings through TWO input windows. The proof data's arrays therefore hold that
  array twice, once per window, at two shares that compose to the full share, while the launch holds the five distinct
  buffers behind the six windows' arrays each whole at the full share. This module proves the two holdings equivalent
  at every valuation: the full share of the embeddings splits into its left and right halves and joins again.
-/
import proofs.«127936_j46145128629049_1_alg».proof.Proof.Gen.KernelIdeal.Launch
import Idealize.ShloMosaic.Lib.Pipeline.Frame

noncomputable section

namespace Cert.KernelIdeal.Fr

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

/-- The buffers behind custom_call 0's arrays against the proof data's arrays. The six windows stand on FIVE distinct
    buffers: windows 0 and 1 both read the array of embeddings, windows 2, 3, 4 read an array each, window 5 writes the
    result. When windows 0 and 1 hold the left and the right half of the full share and windows 2, 3, 4 the full share
    (the output window holds the full share by definition), then, at any valuation, the five buffers each whole at the
    full share ARE the six windows' arrays: the embeddings' full share splits into its two halves, one for each window
    onto it, and the halves join to the full share again; every other buffer is its one window's array as it stands. -/
theorem arrays_iff {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare) (hq4 : dat.q 4 = fullShare)
    (W : Valuation τ sig (Elt F)) :
    (Pipeline.arrBufs spec0 c (fun b => W (Proc.devRef .tc b)) : sProp 𝕄) ⊣⊢ dat.arrays (fun w => W (Proc.devRef .tc (Pipeline.arrRef spec0 w))) := by
  -- the five distinct buffers, one by one
  have hL : (Pipeline.arrBufs spec0 c (fun b => W (Proc.devRef .tc b)) : sProp 𝕄)
      = iprop((((c.tc : Thread nD τ).loc main_v5) ↦{fullShare} W (Proc.devRef .tc main_v5))
          ∗ (((c.tc : Thread nD τ).loc main_v26) ↦{fullShare} W (Proc.devRef .tc main_v26))
          ∗ (((c.tc : Thread nD τ).loc main_v27) ↦{fullShare} W (Proc.devRef .tc main_v27))
          ∗ (((c.tc : Thread nD τ).loc main_v25) ↦{fullShare} W (Proc.devRef .tc main_v25))
          ∗ (((c.tc : Thread nD τ).loc main_v28) ↦{fullShare} W (Proc.devRef .tc main_v28))) := by
    unfold Pipeline.arrBufs
    exact (bigSep_eq_bigSepL_of_eq [main_v5, main_v26, main_v27, main_v25, main_v28] (by decide) (by decide) _).trans rfl
  -- each window's share: an input window's is the proof data's, the output window's the full share
  have hs0 : dat.share 0 = fullShare.left := hq0
  have hs1 : dat.share 1 = fullShare.right := hq1
  have hs2 : dat.share 2 = fullShare := hq2
  have hs3 : dat.share 3 = fullShare := hq3
  have hs4 : dat.share 4 = fullShare := hq4
  have hs5 : dat.share 5 = fullShare := rfl
  -- the six windows' arrays, one by one, each a whole buffer
  have hR : (dat.arrays (fun w => W (Proc.devRef .tc (Pipeline.arrRef spec0 w))) : sProp 𝕄)
      = iprop((((c.tc : Thread nD τ).loc main_v5) ↦{fullShare.left} W (Proc.devRef .tc main_v5))
          ∗ (((c.tc : Thread nD τ).loc main_v5) ↦{fullShare.right} W (Proc.devRef .tc main_v5))
          ∗ (((c.tc : Thread nD τ).loc main_v26) ↦{fullShare} W (Proc.devRef .tc main_v26))
          ∗ (((c.tc : Thread nD τ).loc main_v27) ↦{fullShare} W (Proc.devRef .tc main_v27))
          ∗ (((c.tc : Thread nD τ).loc main_v25) ↦{fullShare} W (Proc.devRef .tc main_v25))
          ∗ (((c.tc : Thread nD τ).loc main_v28) ↦{fullShare} W (Proc.devRef .tc main_v28))) := by
    have hwhole : (dat.arrays (fun w => W (Proc.devRef .tc (Pipeline.arrRef spec0 w))) : sProp 𝕄)
        = bigSep Finset.univ fun w : Fin 6 =>
            (((c.tc : Thread nD τ).loc (Pipeline.arrRef spec0 w)) ↦{dat.share w} W (Proc.devRef .tc (Pipeline.arrRef spec0 w)) : sProp 𝕄) := by
      unfold Dat.arrays
      exact bigSep_congr fun w _ => by rw [(arr_whole0 w).set_eq_univ]
    rw [hwhole, bigSep_W0, hs0, hs1, hs2, hs3, hs4, hs5]
  rw [hL, hR]
  constructor
  · iintro ⟨H5, H26, H27, H25, H28⟩
    ihave H5' := (pointsTo_share (PosShare.mem_left_op_right fullShare)).mp $$ H5
    icases H5' with ⟨H5l, H5r⟩
    isplitl [H5l]; · iexact H5l
    isplitl [H5r]; · iexact H5r
    isplitl [H26]; · iexact H26
    isplitl [H27]; · iexact H27
    isplitl [H25]; · iexact H25
    iexact H28
  · iintro ⟨H5l, H5r, H26, H27, H25, H28⟩
    isplitl [H5l H5r]
    · iapply (pointsTo_share (PosShare.mem_left_op_right fullShare)).mpr
      isplitl [H5l]; · iexact H5l
      iexact H5r
    isplitl [H26]; · iexact H26
    isplitl [H27]; · iexact H27
    isplitl [H25]; · iexact H25
    iexact H28

end Cert.KernelIdeal.Fr
-- ==== Proof.IdealLaunch.lean ====
/-
  The run of the whole program, and its frame.

  The region's windows 0 and 1 both read the embeddings array, so the launch deals that buffer's share in two
  halves and joins them again at the region's exit; with that, every weakly fair run of the program ends, the
  output array at what the accumulation wrote block by block, every other buffer as the averaging lines leave it.
  None of those lines, and no host line before the region, writes an argument array: the frame.
-/
import proofs.«127936_j46145128629049_1_alg».proof.Proof.IdealBody
import proofs.«127936_j46145128629049_1_alg».proof.Proof.IdealShares
import proofs.«127936_j46145128629049_1_alg».proof.Proof.LibSharedLaunch

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore buffers at the region's exit: the output array at its final contents, everything else as at entry. -/
def W1 (c : Dev nD) : Valuation τ sig (Elt F) :=
  Function.update (V0 m c) (Proc.devRef .tc main_v28) ((dats m 0 c).arrAt 5 cfg0.N)

theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The averaging lines write only their own result buffers, none of which is an array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem W1_arr (c : Dev nD) (w : Fin cfg0.W) :
    W1 m c (Proc.devRef .tc (Pipeline.arrRef spec0 w)) = (dats m 0 c).arrAt w cfg0.N := by
  have hin : ∀ w : Fin cfg0.W, (cfg0.win w).isOut = false → Proc.devRef (τ := τ) .tc (Pipeline.arrRef spec0 w) ≠ Proc.devRef .tc main_v28 →
      W1 m c (Proc.devRef .tc (Pipeline.arrRef spec0 w)) = (dats m 0 c).arrAt w cfg0.N := fun w hw hne => by
    unfold W1
    rw [Function.update_of_ne hne, (dats m 0 c).arrAt_in w hw, A_eq]
  fin_cases w
  · exact hin 0 rfl (StableHlo.devRef_ne_of_ne (by decide))
  · exact hin 1 rfl (StableHlo.devRef_ne_of_ne (by decide))
  · exact hin 2 rfl (StableHlo.devRef_ne_of_ne (by decide))
  · exact hin 3 rfl (StableHlo.devRef_ne_of_ne (by decide))
  · exact hin 4 rfl (StableHlo.devRef_ne_of_ne (by decide))
  · exact Function.update_self _ _ _

theorem W1_rest (c : Dev nD) : ∀ b ∈ Pipeline.restRefs sig spec0, W1 m c (Proc.devRef .tc b) = V0 m c (Proc.devRef .tc b) := by
  intro b hb
  unfold W1
  refine Function.update_of_ne (fun e => ?_) _ _
  have hb' : b = main_v28 := Proc.devRef_injective (τ := τ) _ e
  subst hb'
  simp only [Pipeline.restRefs, Finset.mem_sdiff, Finset.mem_image, Finset.mem_univ, true_and, not_exists] at hb
  exact hb.2 5 rfl

-- the launch theorem's implicit arguments are found by unifying its conclusion with this one
set_option backward.isDefEq.respectTransparency.types false in
/-- Every weakly fair run of the program terminates; in every final state each window's array holds its final
    contents and every other unscoped buffer what the averaging lines leave from the region's exit. -/
theorem run_main : θ_run defs (onTc (τ := τ) (main (F := F))) (s₀ m ρ)
    (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after [hostOps1].flatten (W1 m c) (Proc.devRef .tc b)) :=
  Cert.Lib.SharedLaunch.θ_run_frame_around_track_shared cfgs (dats m) (0 : Fin 1) cellOf_inj winFacts₀0 block_pos0 arr_whole0 stage_whole0
    defs₀ Variants.none m ρ main (fun c => (body_obligation m c).loose) (fun _ _ => rfl) (V0 m) [hostOps1] sfx_sub sfx_fresh
    (hmain m Variants.none) (fun c W => arrays_iff (dats m 0 c) rfl rfl rfl rfl rfl W) (A_eq m) (W1 m) (W1_arr m) (W1_rest m)
    sfx_keeps (hin m) (hout m)

/-- An argument array is no array of the region and is written by no host line: it ends as launched. -/
theorem kept_of (c : Dev nD) (b : Ref sig .tc) (hb : Proc.devRef (τ := τ) .tc b ≠ Proc.devRef .tc main_v28)
    (hw : ∀ op ∈ [hostOps1 (F := F)].flatten, Proc.devRef .tc b ∉ op.writes) (hV : V m c b = m ((c : Thread nD τ).loc b)) :
    StableHlo.after [hostOps1].flatten (W1 m c) (Proc.devRef .tc b) = m ((c : Thread nD τ).loc b) := by
  rw [StableHlo.after_of_forall_not_mem _ _ hw]
  unfold W1
  rw [Function.update_of_ne hb]
  exact hV

theorem tail_keeps (b : Ref sig .tc) (h5 : b ≠ main_v29) (h6 : b ≠ main_cst_5) (h7 : b ≠ main_v30) (h8 : b ≠ main_cst_6) (h9 : b ≠ main_v31) :
    ∀ op ∈ [hostOps1 (F := F)].flatten, Proc.devRef (τ := τ) .tc b ∉ op.writes := by
  intro op hop
  simp only [hostOps1, List.flatten_cons, List.flatten_nil, List.append_nil, List.mem_cons, List.mem_nil_iff, or_false] at hop
  rcases hop with rfl | rfl | rfl | rfl | rfl <;>
    simp only [StableHlo.nullary_writes, StableHlo.unary_writes, StableHlo.binary_writes, StableHlo.reshape_writes, Finset.mem_singleton] <;>
    exact StableHlo.devRef_ne_of_ne (by assumption)

/-- THE FRAME: the program runs to the end, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans
        (kept_of m c main_arg0 (StableHlo.devRef_ne_of_ne (by decide)) (tail_keeps main_arg0 (by decide) (by decide) (by decide) (by decide) (by decide)) (V_main_arg0 m c)),
     ((h c).2 main_arg1 (Pipeline.mem_restRefs_of main_arg1 (by decide) (by decide))).trans
        (kept_of m c main_arg1 (StableHlo.devRef_ne_of_ne (by decide)) (tail_keeps main_arg1 (by decide) (by decide) (by decide) (by decide) (by decide)) (V_main_arg1 m c)),
     ((h c).2 main_arg2 (Pipeline.mem_restRefs_of main_arg2 (by decide) (by decide))).trans
        (kept_of m c main_arg2 (StableHlo.devRef_ne_of_ne (by decide)) (tail_keeps main_arg2 (by decide) (by decide) (by decide) (by decide) (by decide)) (V_main_arg2 m c))⟩)
    (run_main m ρ)

end Cert.KernelIdeal.Fr

end
-- ==== Proof.IdealResult.lean ====
/-
  The run of the program with its result named: the averaged loss is what the averaging lines compute from the
  region's output array, and the three argument arrays end as launched.
-/
import proofs.«127936_j46145128629049_1_alg».proof.Proof.IdealLaunch

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_value : θ_run defs (onTc (τ := τ) (main (F := F))) ⟨m, fun _ => 0, ρ⟩ (fun r => ∀ c : Dev nD,
      r.2.mem ((c.tc : Thread nD τ).loc main_v31) = StableHlo.after [hostOps1].flatten (W1 m c) (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v31 (Pipeline.mem_restRefs_of main_v31 (by decide) (by decide)),
     ((h c).2 main_arg0 (Pipeline.mem_restRefs_of main_arg0 (by decide) (by decide))).trans
        (kept_of m c main_arg0 (StableHlo.devRef_ne_of_ne (by decide)) (tail_keeps main_arg0 (by decide) (by decide) (by decide) (by decide) (by decide)) (V_main_arg0 m c)),
     ((h c).2 main_arg1 (Pipeline.mem_restRefs_of main_arg1 (by decide) (by decide))).trans
        (kept_of m c main_arg1 (StableHlo.devRef_ne_of_ne (by decide)) (tail_keeps main_arg1 (by decide) (by decide) (by decide) (by decide) (by decide)) (V_main_arg1 m c)),
     ((h c).2 main_arg2 (Pipeline.mem_restRefs_of main_arg2 (by decide) (by decide))).trans
        (kept_of m c main_arg2 (StableHlo.devRef_ne_of_ne (by decide)) (tail_keeps main_arg2 (by decide) (by decide) (by decide) (by decide) (by decide)) (V_main_arg2 m c))⟩)
    (run_main m ρ)

end Cert.KernelIdeal.Fr

end
-- ==== Proof.IdealPieces.lean ====
/-
  What the stores found by the body's three symbolic runs read back to, as the body's own arithmetic.

  At a point of the first column tile the scratch is first overwritten by the zero splat and then by the update
  applied to that zero read back, so it ends at the update of zero. At a point of a middle column tile the one
  store is the update of what the point before left. At a point of the last column tile the scratch ends the
  same way, and the output window's buffer is overwritten by the scratch read back after that store, so both hold
  the update of what the point before left. Every store and every load is of the whole buffer at the origin, so the
  canonical contents of the store lists are the payloads themselves.
-/
import proofs.«127936_j46145128629049_1_alg».proof.Proof.IdealData
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offset of every store and load of the body is the origin. -/
theorem hz00 : (![0, 0] : Fin 2 → Nat) = fun _ => 0 := funext fun a => by fin_cases a <;> rfl

/-- First column tile: the scratch ends at the update of the zero splat. The later store covers the buffer, and
    its last operand is the load of the earlier store, which reads the zero splat back. -/
theorem accFirst_eq (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : condFirst i) (hc1 : ¬condLast i)
    (x0 : Vec F S512x256 .bf16) (x1 : Vec F S2048x256 .bf16) (x2 : Vec F S512x1 .i32) (x3 : Vec F S1x2048 .i32) (x4 : Vec F S512x1 .f32) :
    accFirst c i arg2 harg2 arg3 harg3 arg4 harg4 arg5 harg5 arg6 harg6 arg7 harg7 arg8 harg8 hc0 hc1 x0 x1 x2 x3 x4 = k0_pay2 x0 x1 x2 x3 x4 (k0_pay1 (F := F)) := by
  unfold accFirst
  rw [View.read_writes_eq_canon _ _ _ (coverAccFirst c i arg2 harg2 arg3 harg3 arg4 harg4 arg5 harg5 arg6 harg6 arg7 harg7 arg8 harg8 hc0 hc1 x0 x1 x2 x3 x4)]
  unfold runFirst
  dsimp only
  sl_unfold_words
  rw [View.canon_cons_unit_zero (S := S512x1) hz00, View.readCov_unit_zero (S := S512x1) _ hz00]
  simp only [View.readAt_eq_ld, harg2.read_unread, harg3.read_unread, harg4.read_unread, harg5.read_unread, harg6.read_unread,
    View.ld_unit_zero (S := S512x256) hz00, View.ld_unit_zero (S := S2048x256) hz00, View.ld_unit_zero (S := S512x1) hz00,
    View.ld_unit_zero (S := S1x2048) hz00]

/-- Middle column tile: the scratch ends at the update of what it held. -/
theorem accMid_eq (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : ¬condLast i)
    (x0 : Vec F S512x256 .bf16) (x1 : Vec F S2048x256 .bf16) (x2 : Vec F S512x1 .i32) (x3 : Vec F S1x2048 .i32) (x4 : Vec F S512x1 .f32) (xs : Vec F S512x1 .f32) :
    accMid c i arg2 harg2 arg3 harg3 arg4 harg4 arg5 harg5 arg6 harg6 arg7 harg7 arg8 harg8 hc0 hc1 x0 x1 x2 x3 x4 xs = k0_pay2 x0 x1 x2 x3 x4 xs := by
  unfold accMid
  rw [View.read_writes_eq_canon _ _ _ (coverAccMid c i arg2 harg2 arg3 harg3 arg4 harg4 arg5 harg5 arg6 harg6 arg7 harg7 arg8 harg8 hc0 hc1 x0 x1 x2 x3 x4 xs)]
  unfold runMid
  dsimp only
  sl_unfold_words
  rw [View.canon_unit_zero (S := S512x1) hz00]
  simp only [View.readAt_eq_ld, harg2.read_unread, harg3.read_unread, harg4.read_unread, harg5.read_unread, harg6.read_unread, harg8.read_unread,
    View.ld_unit_zero (S := S512x256) hz00, View.ld_unit_zero (S := S2048x256) hz00, View.ld_unit_zero (S := S512x1) hz00,
    View.ld_unit_zero (S := S1x2048) hz00]

/-- Last column tile: the scratch ends at the update of what it held. -/
theorem accLast_eq (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : condLast i)
    (x0 : Vec F S512x256 .bf16) (x1 : Vec F S2048x256 .bf16) (x2 : Vec F S512x1 .i32) (x3 : Vec F S1x2048 .i32) (x4 : Vec F S512x1 .f32) (xs : Vec F S512x1 .f32) :
    accLast c i arg2 harg2 arg3 harg3 arg4 harg4 arg5 harg5 arg6 harg6 arg7 harg7 arg8 harg8 hc0 hc1 x0 x1 x2 x3 x4 xs = k0_pay2 x0 x1 x2 x3 x4 xs := by
  unfold accLast
  rw [View.read_writes_eq_canon _ _ _ (coverAccLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero (S := S512x1) hz00]
  simp only [View.readAt_eq_ld, harg2.read_unread, harg3.read_unread, harg4.read_unread, harg5.read_unread, harg6.read_unread, harg8.read_unread,
    View.ld_unit_zero (S := S512x256) hz00, View.ld_unit_zero (S := S2048x256) hz00, View.ld_unit_zero (S := S512x1) hz00,
    View.ld_unit_zero (S := S1x2048) hz00]

/-- Last column tile: the output window's buffer ends at the scratch read back after its store, the same update. -/
theorem outLast_eq (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬condFirst i) (hc1 : condLast i)
    (x0 : Vec F S512x256 .bf16) (x1 : Vec F S2048x256 .bf16) (x2 : Vec F S512x1 .i32) (x3 : Vec F S1x2048 .i32) (x4 : Vec F S512x1 .f32) (xs : Vec F S512x1 .f32) :
    outLast c i arg2 harg2 arg3 harg3 arg4 harg4 arg5 harg5 arg6 harg6 arg7 harg7 arg8 harg8 hc0 hc1 x0 x1 x2 x3 x4 xs = k0_pay2 x0 x1 x2 x3 x4 xs := by
  unfold outLast
  rw [View.read_writes_eq_canon _ _ _ (coverOutLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero (S := S512x1) hz00, View.readCov_unit_zero (S := S512x1) _ hz00]
  simp only [View.readAt_eq_ld, harg2.read_unread, harg3.read_unread, harg4.read_unread, harg5.read_unread, harg6.read_unread, harg8.read_unread,
    View.ld_unit_zero (S := S512x256) hz00, View.ld_unit_zero (S := S2048x256) hz00, View.ld_unit_zero (S := S512x1) hz00,
    View.ld_unit_zero (S := S1x2048) hz00]

end Cert.KernelIdeal.Fr

end
-- ==== Proof.Spec.lean ====
/-
  The mathematics both programs compute, over the extended reals, and the one law that joins them.

  For embeddings e (rows of 256), labels t and thresholds θ, the margin of the pair (p, q) is
  e_p·e_q − θ_p when the labels differ and e_p·e_q > θ_p, and 0 otherwise; the loss of row p is the maximum of
  its margins over all 16384 columns. The reference takes that maximum in one reduction from −∞. The kernel
  takes it in eight column tiles of 2048, folding each tile's maximum (from −∞) into a running maximum that
  starts at 0. The two agree because the margin of the diagonal pair (p, p) is 0 — the labels there are
  equal — so the full maximum is never below 0 and the extra 0 changes nothing.
-/
import Idealize.ShloMosaic.PureOps.Ideal
import Idealize.ShloMosaic.PureOps.Ideal.Laws
import Idealize.ShloMosaic.Lib.ValueIdx

noncomputable section

namespace Cert.Spec

open Idealize.ShloMosaic

/-- The masked margin of one pair: labels `tp`, `tq`, similarity `s`, threshold `θ`. Spelled with the operations
    both programs apply, element by element, and the zero as both print it. -/
def marg (tp tq : BitVec 32) (s θ : EReal) : EReal :=
  Scalar.select (IntOp.andi (IntOp.cmpi .ne tp tq) (FloatOps.cmpf (F := Ideal) (φ := .f32) .ogt s θ))
    (FloatOps.subf (F := Ideal) (φ := .f32) s θ) (FloatOps.ofBits (F := Ideal) .f32 0x00000000#32)

/-- The margin of a pair with equal labels is 0. -/
theorem marg_self (t : BitVec 32) (s θ : EReal) : marg t t s θ = 0 := by
  -- the label test `t ≠ t` is the zero bit, so the conjunction is the zero bit and the zero branch is chosen
  have h : IntOp.cmpi .ne t t = 0#1 := by simp [IntOp.cmpi]
  unfold marg
  rw [h]
  simp [IntOp.andi, Scalar.select, Ideal.ofBits_zero_f32]

/-- The similarity of two rows of 256. -/
def dot256 (a b : Fin 256 → EReal) : EReal := ∑ k : Fin 256, a k * b k

/-- −∞ as both programs print it. -/
theorem negInf_eq : (FloatOps.ofBits (F := Ideal) .f32 0xFF800000#32 : EReal) = ⊥ := by
  -- sign bit set, exponent all ones, significand zero
  simp [Ideal.ofBits, Ideal.ieee]

/-- A row's maximum over all 16384 columns, from −∞. -/
def rowMax (g : Fin 16384 → EReal) : EReal :=
  (Finset.univ : Finset (Fin 16384)).fold max (FloatOps.ofBits (F := Ideal) .f32 0xFF800000#32) g

/-- Column `q` of column tile `j`. -/
def colOf (j : Fin 8) (q : Fin 2048) : Fin 16384 := ⟨2048 * j.val + q.val, by omega⟩

/-- A row's maximum over the 2048 columns of tile `j`, from −∞. -/
def tileMax (g : Fin 16384 → EReal) (j : Fin 8) : EReal :=
  (Finset.univ : Finset (Fin 2048)).fold max (FloatOps.ofBits (F := Ideal) .f32 0xFF800000#32) (fun q => g (colOf j q))

/-- The kernel's running maximum after the first `n` column tiles: it starts at 0. -/
def runMax (g : Fin 16384 → EReal) : ℕ → EReal
  | 0 => 0
  | n + 1 => max (runMax g n) (if h : n < 8 then tileMax g ⟨n, h⟩ else ⊥)

/-- A tile's maximum is below `c` exactly when each of its columns is. -/
theorem tileMax_le (g : Fin 16384 → EReal) (j : Fin 8) (c : EReal) :
    tileMax g j ≤ c ↔ ∀ q : Fin 2048, g (colOf j q) ≤ c := by
  unfold tileMax
  rw [Finset.fold_max_le, negInf_eq]
  simp

/-- The full maximum is below `c` exactly when every column is. -/
theorem rowMax_le (g : Fin 16384 → EReal) (c : EReal) : rowMax g ≤ c ↔ ∀ x : Fin 16384, g x ≤ c := by
  unfold rowMax
  rw [Finset.fold_max_le, negInf_eq]
  simp

/-- The running maximum after `n` tiles is below `c` exactly when 0 and the first `n` tile maxima are. -/
theorem runMax_le (g : Fin 16384 → EReal) (c : EReal) :
    ∀ n, n ≤ 8 → (runMax g n ≤ c ↔ 0 ≤ c ∧ ∀ j : Fin 8, j.val < n → tileMax g j ≤ c)
  | 0, _ => by simp [runMax]
  | n + 1, hn => by
    have hlt : n < 8 := by omega
    rw [runMax, dif_pos hlt, max_le_iff, runMax_le g c n (by omega)]
    constructor
    · rintro ⟨⟨h0, h1⟩, h2⟩
      refine ⟨h0, fun j hj => ?_⟩
      rcases Nat.lt_succ_iff_lt_or_eq.mp hj with h | h
      · exact h1 j h
      · have hj' : j = ⟨n, hlt⟩ := Fin.ext h
        rw [hj']; exact h2
    · rintro ⟨h0, h1⟩
      exact ⟨⟨h0, fun j hj => h1 j (by omega)⟩, h1 ⟨n, hlt⟩ (by simp)⟩

/-- THE LAW. If some column's value is at least 0, the running maximum over all eight tiles started at 0 is
    the maximum over all columns started at −∞. -/
theorem runMax_eight (g : Fin 16384 → EReal) (h : ∃ q, 0 ≤ g q) : runMax g 8 = rowMax g := by
  -- both sides have the same upper bounds: every column lies in exactly one tile, and the extra 0 is
  -- already below the column whose value is at least 0
  obtain ⟨q0, hq0⟩ := h
  refine eq_of_forall_ge_iff fun c => ?_
  rw [runMax_le g c 8 le_rfl, rowMax_le]
  constructor
  · rintro ⟨_, h1⟩ x
    have hx := x.isLt
    have hd : x.val / 2048 < 8 := by omega
    have hm : x.val % 2048 < 2048 := Nat.mod_lt _ (by norm_num)
    have ht := (tileMax_le g ⟨x.val / 2048, hd⟩ c).mp (h1 _ hd) ⟨x.val % 2048, hm⟩
    have hc : colOf ⟨x.val / 2048, hd⟩ ⟨x.val % 2048, hm⟩ = x := by
      apply Fin.ext
      simp only [colOf]
      omega
    rwa [hc] at ht
  · intro hx
    exact ⟨le_trans hq0 (hx q0), fun j _ => (tileMax_le g j c).mpr fun q => hx _⟩

/-- The loss of row `p`: the maximum over all columns of the masked margins. -/
def lossRow (e : Fin 16384 → Fin 256 → EReal) (θ : Fin 16384 → EReal) (t : Fin 16384 → BitVec 32) (p : Fin 16384) : EReal :=
  rowMax (fun q => marg (t p) (t q) (dot256 (e p) (e q)) (θ p))

/-- The kernel's form of it is the same number: the diagonal column's margin is 0. -/
theorem runMax_loss (e : Fin 16384 → Fin 256 → EReal) (θ : Fin 16384 → EReal) (t : Fin 16384 → BitVec 32) (p : Fin 16384) :
    runMax (fun q => marg (t p) (t q) (dot256 (e p) (e q)) (θ p)) 8 = lossRow e θ t p :=
  runMax_eight _ ⟨p, by rw [marg_self]⟩

end Cert.Spec

end
-- ==== Proof.LibMatmulRowsAt.lean ====
/-
  A matrix product into a zero accumulator, read at one entry over the extended reals, for operands that are both
  stored by rows of the contracted axis.

  For dimension numbers that contract the second axis of BOTH operands, with no batch axis — so that the left operand
  is read at (row, k) and the right at (column, k) — the entry (p, q) of the product of an [A × K] and a [B × K] matrix
  is `∑ₖ l[p, k] · r[q, k]`: the right operand enters transposed. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · rᵀ` accumulated into zero is the sum over the contracted axis of `l[p, k] · r[q, k]`, for
    dimension numbers `D` whose one contracted axis has extent `K` (`hr`, `hs`) and which read the left operand at
    (row, k) (`hl0`, `hl1`) and the right at (column, k) (`hr0`, `hr1`). -/
theorem matmul_zero_rows_at {A K B : Nat} {φ₁ φ₂ : FTy}
    (D : DotDims (⟨2, ![A, K]⟩ : Shape) (⟨2, ![B, K]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (i 1).val)
    (hr1 : ∀ (i : (⟨2, ![A, B]⟩ : Shape).Idx) (q : D.contr.Idx), (D.rhsIdx i q 1).val = (q ⟨0, by omega⟩).val)
    (prec : Option ContractPrecision) (l : FVec Ideal (⟨2, ![A, K]⟩ : Shape) φ₁) (r : FVec Ideal (⟨2, ![B, K]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Idealize.ShloMosaic.MatmulAt

end
-- ==== Proof.IdealPay.lean ====
/-
  What the kernel body stores, entry by entry, over the extended reals.

  The body's first store (taken on the first column tile only) writes the zero column. Its second store writes, at
  row r, the maximum of the accumulator's entry at r and the row maximum — from −∞, over the tile's 2048 columns q — of
  the masked margins of the pairs (r, q): the similarity of row r of the left block and row q of the right block,
  `∑ₖ x0[r, k] · x1[q, k]`, less the threshold of r where the two labels differ and the similarity exceeds the
  threshold, and 0 elsewhere.
-/
import proofs.«127936_j46145128629049_1_alg».proof.Proof.Gen.KernelIdeal.Skeleton
import proofs.«127936_j46145128629049_1_alg».proof.Proof.Spec
import proofs.«127936_j46145128629049_1_alg».proof.Proof.LibMatmulRowsAt
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen

/-! ## Two layout readings: a column broadcast along rows, a vector cast to a column -/

section Layout
variable {α : Type}

/-- A column `[a, 1]` broadcast to `[a, b]` reads, at `(p, c)`, the column's entry at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## The product: where its dimension numbers read the two blocks -/

/-- The left block is read at the entry's row … -/
theorem lhs_dot_0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
/-- … and the contraction's position. -/
theorem lhs_dot_1 (i : S512x2048.Idx) (q : dot_S512x256_S2048x256_S512x2048_1_1_0_0_n_n.contr.Idx) :
    (dot_S512x256_S2048x256_S512x2048_1_1_0_0_n_n.lhsIdx i q 1).val = (q ⟨0, by decide⟩).val :=
  dot_S512x256_S2048x256_S512x2048_1_1_0_0_n_n.lhsIdx_val_of_single rfl i q
/-- The right block is read at the entry's column, as a row of the block, … -/
theorem rhs_dot_0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
/-- … and the contraction's position. -/
theorem rhs_dot_1 (i : S512x2048.Idx) (q : dot_S512x256_S2048x256_S512x2048_1_1_0_0_n_n.contr.Idx) :
    (dot_S512x256_S2048x256_S512x2048_1_1_0_0_n_n.rhsIdx i q 1).val = (q ⟨0, by decide⟩).val :=
  dot_S512x256_S2048x256_S512x2048_1_1_0_0_n_n.rhsIdx_val_of_single rfl i q

/-- The similarity of row `p` of the left block and row `q` of the right block: entry `(p, q)` of the body's product. -/
theorem sim_apply (l : FVec Ideal S512x256 .bf16) (r : FVec Ideal S2048x256 .bf16) (p : Fin 512) (q : Fin 2048) :
    matmul dot_S512x256_S2048x256_S512x2048_1_1_0_0_n_n none l r (constant (F := Ideal) S512x2048 .f32 0x00000000#32) (ix2 p q)
      = ∑ k : Fin 256, l (ix2 p k) * r (ix2 q k) :=
  MatmulAt.matmul_zero_rows_at dot_S512x256_S2048x256_S512x2048_1_1_0_0_n_n rfl rfl lhs_dot_0 lhs_dot_1 rhs_dot_0 rhs_dot_1 none l r p q

/-! ## The two stored values -/

/-- The first store writes the zero column. -/
theorem pay1_apply (r : Fin 512) : (k0_pay1 (F := Ideal) : FVec Ideal S512x1 .f32) (ix2 r 0) = 0 := by
  unfold k0_pay1
  simp only [shapeCast_self]
  exact Ideal.ofBits_zero_f32

/-- The second store writes, at row `r`, the larger of the accumulator's entry and the tile's row maximum of the masked margins. -/
theorem pay2_apply (x0 : Vec Ideal S512x256 .bf16) (x1 : Vec Ideal S2048x256 .bf16) (x2 : Vec Ideal S512x1 .i32)
    (x3 : Vec Ideal S1x2048 .i32) (x4 a : Vec Ideal S512x1 .f32) (r : Fin 512) :
    k0_pay2 (F := Ideal) x0 x1 x2 x3 x4 a (ix2 r 0)
      = max (a (ix2 r 0)) ((Finset.univ : Finset (Fin 2048)).fold max (FloatOps.ofBits (F := Ideal) .f32 0xFF800000#32)
          (fun q => Cert.Spec.marg (x2 (ix2 r 0)) (x3 (ix2 0 q)) (∑ k : Fin 256, (x0 (ix2 r k) : EReal) * (x1 (ix2 q k) : EReal)) (x4 (ix2 r 0)))) := by
  unfold k0_pay2
  simp only [shapeCast_self]
  refine (maximumf_apply _ _ _).trans (congrArg (max (a (ix2 r 0))) ?_)
  refine (shapeCast_a_a1_apply _ shapeCasts_S512_S512x1 r 0).trans ?_
  refine (Ideal.multiReduction_maximumf_single _ _ reduces_S512x2048_S512 _ _ (ix1 r)).trans ?_
  refine Finset.fold_congr fun (q : Fin 2048) _ => ?_
  have hidx : reduces_S512x2048_S512.lift (ix1 r) q = ix2 r q :=
    funext fun c => Fin.ext (by match c with | ⟨0, _⟩ => rfl | ⟨1, _⟩ => rfl)
  refine (congrArg _ hidx).trans ?_
  have h2 : broadcastTo S512x2048 x2 broadcasts_S512x1_S512x2048 (ix2 r q) = x2 (ix2 r 0) :=
    broadcastTo_a1_ab_apply (a := 512) (b := 2048) x2 broadcasts_S512x1_S512x2048 r q
  have h3 : broadcastTo S512x2048 x3 broadcasts_S1x2048_S512x2048 (ix2 r q) = x3 (ix2 0 q) :=
    broadcastTo_1b_ab_apply (a := 512) (b := 2048) x3 broadcasts_S1x2048_S512x2048 r q
  have h4 : broadcastTo S512x2048 x4 broadcasts_S512x1_S512x2048 (ix2 r q) = x4 (ix2 r 0) :=
    broadcastTo_a1_ab_apply (a := 512) (b := 2048) x4 broadcasts_S512x1_S512x2048 r q
  have hM := sim_apply x0 x1 r q
  show Cert.Spec.marg (broadcastTo S512x2048 x2 broadcasts_S512x1_S512x2048 (ix2 r q))
      (broadcastTo S512x2048 x3 broadcasts_S1x2048_S512x2048 (ix2 r q))
      (matmul dot_S512x256_S2048x256_S512x2048_1_1_0_0_n_n none x0 x1 (constant (F := Ideal) S512x2048 .f32 0x00000000#32) (ix2 r q))
      (broadcastTo S512x2048 x4 broadcasts_S512x1_S512x2048 (ix2 r q)) = _
  rw [h2, h3, h4, hM]

end Cert.KernelIdeal.Val

end
-- ==== Proof.IdealAcc.lean ====
/-
  The output array after the region, as one function of the arrays the region reads, over the extended reals.

  The grid has 32 × 8 points t = 8·i + j: row tile i of 512 rows, column tile j of 2048 columns. At row p the
  margin of the pair (p, q) is a function g_p(q) of the embeddings, the labels and the thresholds. At a point of
  column tile j the body joins the accumulator's entry at row r with the maximum of g over the 2048 columns of
  tile j, the row being 512·i + r; the accumulator starts from the zero column at j = 0. So after the point
  8·i + j the scratch holds, at row r, the running maximum of row 512·i + r over the tiles 0 … j, by induction on
  the point. At j = 7 the output window's buffer holds the same column and is written back as block i of the
  output array. The 32 blocks written back cover the array, so every row p ends at the running maximum of g_p
  over all eight tiles.
-/
import proofs.«127936_j46145128629049_1_alg».proof.Proof.IdealPieces
import proofs.«127936_j46145128629049_1_alg».proof.Proof.IdealPay
import proofs.«127936_j46145128629049_1_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Fr

variable (m : (ℓ : Loc nD τ sig) → Buf (Elt Ideal) ℓ) (c : Dev nD)

/-! ## The function the output array is -/

/-- row p's column function: the margin of (p, q) from the arrays the region reads -/
def gRow (p : Fin 16384) (q : Fin 16384) : EReal :=
  Cert.Spec.marg (V (F := Ideal) m c main_v26 (ix2 p 0)) (V (F := Ideal) m c main_v27 (ix2 0 q))
    (Cert.Spec.dot256 (fun k => V (F := Ideal) m c main_v5 (ix2 p k)) (fun k => V (F := Ideal) m c main_v5 (ix2 q k))) (V (F := Ideal) m c main_v25 (ix2 p 0))

/-- the whole output array -/
def outArr : Buf (Elt Ideal) ((cfg0.win 5).arr.view.loc (c.tc : Thread nD τ)) :=
  fun idx => Cert.Spec.runMax (gRow m c ((idx : S16384x1.Idx) 0)) 8

/-! ## Where each window's block sits in its array -/

/-- The windows' index maps over the grid: the windows cut by rows follow the row tile t / 8, the two cut by
    the column tile follow t % 8, and every other block coordinate is 0. -/
theorem idx_facts : ∀ t : Fin cfg0.N,
    win0_0.index t (0 : Fin 2) = t.val / 8 ∧ win0_0.index t (1 : Fin 2) = 0
  ∧ win0_1.index t (0 : Fin 2) = t.val % 8 ∧ win0_1.index t (1 : Fin 2) = 0
  ∧ win0_2.index t (0 : Fin 2) = t.val / 8 ∧ win0_2.index t (1 : Fin 2) = 0
  ∧ win0_3.index t (0 : Fin 2) = 0 ∧ win0_3.index t (1 : Fin 2) = t.val % 8
  ∧ win0_4.index t (0 : Fin 2) = t.val / 8 ∧ win0_4.index t (1 : Fin 2) = 0
  ∧ win0_5.index t (0 : Fin 2) = t.val / 8 ∧ win0_5.index t (1 : Fin 2) = 0 :=
  (by decide +kernel : ∀ t : Fin grid0.N, _)

theorem point_lt (t : Fin cfg0.N) : t.val < 256 := lt_of_lt_of_eq t.isLt (show cfg0.N = 256 from N_0)

/-- The arrays the region reads, at their literal types. -/
abbrev embA : Vec Ideal S16384x256 .bf16 := V (F := Ideal) m c main_v5
abbrev rowLabA : Vec Ideal S16384x1 .i32 := V (F := Ideal) m c main_v26
abbrev colLabA : Vec Ideal S1x16384 .i32 := V (F := Ideal) m c main_v27
abbrev thrA : Vec Ideal S16384x1 .f32 := V (F := Ideal) m c main_v25

/-- The five input blocks at a point, at their literal types. -/
abbrev blkRow (t : Fin cfg0.N) : Vec Ideal S512x256 .bf16 := iblk (F := Ideal) m c 0 t
abbrev blkCol (t : Fin cfg0.N) : Vec Ideal S2048x256 .bf16 := iblk (F := Ideal) m c 1 t
abbrev blkRowLab (t : Fin cfg0.N) : Vec Ideal S512x1 .i32 := iblk (F := Ideal) m c 2 t
abbrev blkColLab (t : Fin cfg0.N) : Vec Ideal S1x2048 .i32 := iblk (F := Ideal) m c 3 t
abbrev blkThr (t : Fin cfg0.N) : Vec Ideal S512x1 .f32 := iblk (F := Ideal) m c 4 t

/-- Row r of the row block at t = 8·i + j is row 512·i + r of the embeddings. -/
theorem blkRow_apply (t : Fin cfg0.N) (r : Fin 512) (k : Fin 256) :
    blkRow m c t (ix2 r k) = embA m c (ix2 ⟨512 * (t.val / 8) + r.val, by have := point_lt t; omega⟩ k) := by
  obtain ⟨e0, e1, -⟩ := idx_facts t
  unfold blkRow iblk
  rw [View.read_apply]
  show V m c main_v5 _ = V m c main_v5 _
  congr 1
  funext a
  apply Fin.ext
  match a with
  | ⟨0, _⟩ => show win0_0.index t (0 : Fin 2) * 512 + 1 * r.val = 512 * (t.val / 8) + r.val; rw [e0]; omega
  | ⟨1, _⟩ => show win0_0.index t (1 : Fin 2) * 256 + 1 * k.val = k.val; rw [e1]; omega

/-- Row q of the column block at t = 8·i + j is row 2048·j + q of the embeddings. -/
theorem blkCol_apply (t : Fin cfg0.N) (q : Fin 2048) (k : Fin 256) :
    blkCol m c t (ix2 q k) = embA m c (ix2 ⟨2048 * (t.val % 8) + q.val, by omega⟩ k) := by
  obtain ⟨-, -, e0, e1, -⟩ := idx_facts t
  unfold blkCol iblk
  rw [View.read_apply]
  show V m c main_v5 _ = V m c main_v5 _
  congr 1
  funext a
  apply Fin.ext
  match a with
  | ⟨0, _⟩ => show win0_1.index t (0 : Fin 2) * 2048 + 1 * q.val = 2048 * (t.val % 8) + q.val; rw [e0]; omega
  | ⟨1, _⟩ => show win0_1.index t (1 : Fin 2) * 256 + 1 * k.val = k.val; rw [e1]; omega

/-- Entry r of the row-label block is the label of row 512·i + r. -/
theorem blkRowLab_apply (t : Fin cfg0.N) (r : Fin 512) :
    blkRowLab m c t (ix2 r 0) = rowLabA m c (ix2 ⟨512 * (t.val / 8) + r.val, by have := point_lt t; omega⟩ 0) := by
  obtain ⟨-, -, -, -, e0, e1, -⟩ := idx_facts t
  unfold blkRowLab iblk
  rw [View.read_apply]
  show V m c main_v26 _ = V m c main_v26 _
  congr 1
  funext a
  apply Fin.ext
  match a with
  | ⟨0, _⟩ => show win0_2.index t (0 : Fin 2) * 512 + 1 * r.val = 512 * (t.val / 8) + r.val; rw [e0]; omega
  | ⟨1, _⟩ => show win0_2.index t (1 : Fin 2) * 1 + 1 * 0 = 0; rw [e1]

/-- Entry q of the column-label block is the label of column 2048·j + q. -/
theorem blkColLab_apply (t : Fin cfg0.N) (q : Fin 2048) :
    blkColLab m c t (ix2 0 q) = colLabA m c (ix2 0 ⟨2048 * (t.val % 8) + q.val, by omega⟩) := by
  obtain ⟨-, -, -, -, -, -, e0, e1, -⟩ := idx_facts t
  unfold blkColLab iblk
  rw [View.read_apply]
  show V m c main_v27 _ = V m c main_v27 _
  congr 1
  funext a
  apply Fin.ext
  match a with
  | ⟨0, _⟩ => show win0_3.index t (0 : Fin 2) * 1 + 1 * 0 = 0; rw [e0]
  | ⟨1, _⟩ => show win0_3.index t (1 : Fin 2) * 2048 + 1 * q.val = 2048 * (t.val % 8) + q.val; rw [e1]; omega

/-- Entry r of the threshold block is the threshold of row 512·i + r. -/
theorem blkThr_apply (t : Fin cfg0.N) (r : Fin 512) :
    blkThr m c t (ix2 r 0) = thrA m c (ix2 ⟨512 * (t.val / 8) + r.val, by have := point_lt t; omega⟩ 0) := by
  obtain ⟨-, -, -, -, -, -, -, -, e0, e1, -⟩ := idx_facts t
  unfold blkThr iblk
  rw [View.read_apply]
  show V m c main_v25 _ = V m c main_v25 _
  congr 1
  funext a
  apply Fin.ext
  match a with
  | ⟨0, _⟩ => show win0_4.index t (0 : Fin 2) * 512 + 1 * r.val = 512 * (t.val / 8) + r.val; rw [e0]; omega
  | ⟨1, _⟩ => show win0_4.index t (1 : Fin 2) * 1 + 1 * 0 = 0; rw [e1]

/-! ## One point's update, from the arrays -/

theorem runMax_step (g : Fin 16384 → EReal) (j : ℕ) (hj : j < 8) :
    Cert.Spec.runMax g (j + 1) = max (Cert.Spec.runMax g j) (Cert.Spec.tileMax g ⟨j, hj⟩) := by
  rw [Cert.Spec.runMax, dif_pos hj]

/-- The body's update at a point of row tile i and column tile j, when its five blocks are the blocks of the
    arrays there: at row r the accumulator's entry is joined with the maximum of row 512·i + r over tile j. -/
theorem update_apply (i : ℕ) (hi : i < 32) (j : ℕ) (hj : j < 8)
    (x0 : Vec Ideal S512x256 .bf16) (x1 : Vec Ideal S2048x256 .bf16) (x2 : Vec Ideal S512x1 .i32)
    (x3 : Vec Ideal S1x2048 .i32) (x4 a : Vec Ideal S512x1 .f32)
    (h0 : ∀ (r : Fin 512) (k : Fin 256), x0 (ix2 r k) = embA m c (ix2 ⟨512 * i + r.val, by omega⟩ k))
    (h1 : ∀ (q : Fin 2048) (k : Fin 256), x1 (ix2 q k) = embA m c (ix2 ⟨2048 * j + q.val, by omega⟩ k))
    (h2 : ∀ r : Fin 512, x2 (ix2 r 0) = rowLabA m c (ix2 ⟨512 * i + r.val, by omega⟩ 0))
    (h3 : ∀ q : Fin 2048, x3 (ix2 0 q) = colLabA m c (ix2 0 ⟨2048 * j + q.val, by omega⟩))
    (h4 : ∀ r : Fin 512, x4 (ix2 r 0) = thrA m c (ix2 ⟨512 * i + r.val, by omega⟩ 0))
    (r : Fin 512) :
    k0_pay2 (F := Ideal) x0 x1 x2 x3 x4 a (ix2 r 0)
      = max (a (ix2 r 0)) (Cert.Spec.tileMax (gRow m c ⟨512 * i + r.val, by omega⟩) ⟨j, hj⟩) := by
  refine (pay2_apply x0 x1 x2 x3 x4 a r).trans (congrArg (max (a (ix2 r 0))) ?_)
  unfold Cert.Spec.tileMax
  refine congrArg (fun f => (Finset.univ : Finset (Fin 2048)).fold max (FloatOps.ofBits (F := Ideal) .f32 0xFF800000#32) f) ?_
  funext q
  unfold gRow Cert.Spec.colOf Cert.Spec.dot256
  rw [h2 r, h3 q, h4 r]
  refine congrArg (fun s => Cert.Spec.marg _ _ s _) ?_
  refine Finset.sum_congr rfl fun k _ => ?_
  rw [h0 r k, h1 q k]

/-! ## The accumulation over the points -/

/-- After the point n = 8·i + j the scratch holds, at row r, the running maximum of row 512·i + r over the
    column tiles 0 … j. -/
theorem scratch_apply (n : ℕ) : ∀ (hn : n < cfg0.N) (r : Fin 512) (p : Fin 16384), p.val = 512 * (n / 8) + r.val →
    (stateAt (F := Ideal) m c n hn).2 (ix2 r 0) = Cert.Spec.runMax (gRow m c p) (n % 8 + 1) := by
  induction n using Nat.strong_induction_on with
  | _ n ih =>
    intro hn r p hp
    have hN : n < 256 := lt_of_lt_of_eq hn (show cfg0.N = 256 from N_0)
    have hi : n / 8 < 32 := by omega
    have hj : n % 8 < 8 := by omega
    have hb : 512 * (n / 8) + r.val < 16384 := by clear hp ih; have := r.isLt; omega
    obtain rfl : p = ⟨512 * (n / 8) + r.val, hb⟩ := Fin.ext hp
    rw [runMax_step _ (n % 8) hj]
    by_cases h0 : n % 8 = 0
    · -- the first column tile: the accumulator is the zero column
      have h1 : ¬n % 8 = 7 := by omega
      have e := stateAt_first (F := Ideal) m c ⟨n, hn⟩ h0 h1
      rw [show stateAt (F := Ideal) m c n hn = _ from e]
      dsimp only
      refine (congrFun (accFirst_eq (F := Ideal) c (grid0.coords ⟨n, hn⟩) (msRow ⟨n, hn⟩) (hsRow ⟨n, hn⟩) (msCol ⟨n, hn⟩) (hsCol ⟨n, hn⟩)
        (msTRow ⟨n, hn⟩) (hsTRow ⟨n, hn⟩) (msTCol ⟨n, hn⟩) (hsTCol ⟨n, hn⟩) (msThr ⟨n, hn⟩) (hsThr ⟨n, hn⟩) (msOut ⟨n, hn⟩) (hsOut ⟨n, hn⟩)
        accM (Memref.isWhole_whole _) ((hcondFirst ⟨n, hn⟩).mpr h0) (fun h => h1 ((hcondLast ⟨n, hn⟩).mp h))
        (blkRow m c ⟨n, hn⟩) (blkCol m c ⟨n, hn⟩) (blkRowLab m c ⟨n, hn⟩) (blkColLab m c ⟨n, hn⟩) (blkThr m c ⟨n, hn⟩)) (ix2 r 0)).trans ?_
      refine (update_apply m c (n / 8) hi (n % 8) hj (blkRow m c ⟨n, hn⟩) (blkCol m c ⟨n, hn⟩) (blkRowLab m c ⟨n, hn⟩)
        (blkColLab m c ⟨n, hn⟩) (blkThr m c ⟨n, hn⟩) (k0_pay1 (F := Ideal))
        (blkRow_apply m c ⟨n, hn⟩) (blkCol_apply m c ⟨n, hn⟩) (blkRowLab_apply m c ⟨n, hn⟩) (blkColLab_apply m c ⟨n, hn⟩)
        (blkThr_apply m c ⟨n, hn⟩) r).trans ?_
      rw [pay1_apply r]
      have z : Cert.Spec.runMax (gRow m c ⟨512 * (n / 8) + r.val, by omega⟩) (n % 8) = 0 := by rw [h0]; rfl
      rw [z]
    · -- a later column tile: the accumulator is what the point before left
      have hn' : n - 1 < cfg0.N := Nat.lt_of_le_of_lt (Nat.sub_le _ _) hn
      have prev := ih (n - 1) (by omega) hn' r ⟨512 * (n / 8) + r.val, by omega⟩ (by show 512 * (n / 8) + r.val = 512 * ((n - 1) / 8) + r.val; omega)
      have ej : (n - 1) % 8 + 1 = n % 8 := by omega
      rw [ej] at prev
      by_cases h1 : n % 8 = 7
      · have e := stateAt_last (F := Ideal) m c ⟨n, hn⟩ h0 h1
        rw [show stateAt (F := Ideal) m c n hn = _ from e]
        dsimp only
        refine (congrFun (accLast_eq (F := Ideal) c (grid0.coords ⟨n, hn⟩) (msRow ⟨n, hn⟩) (hsRow ⟨n, hn⟩) (msCol ⟨n, hn⟩) (hsCol ⟨n, hn⟩)
          (msTRow ⟨n, hn⟩) (hsTRow ⟨n, hn⟩) (msTCol ⟨n, hn⟩) (hsTCol ⟨n, hn⟩) (msThr ⟨n, hn⟩) (hsThr ⟨n, hn⟩) (msOut ⟨n, hn⟩) (hsOut ⟨n, hn⟩)
          accM (Memref.isWhole_whole _) (fun h => h0 ((hcondFirst ⟨n, hn⟩).mp h)) ((hcondLast ⟨n, hn⟩).mpr h1)
          (blkRow m c ⟨n, hn⟩) (blkCol m c ⟨n, hn⟩) (blkRowLab m c ⟨n, hn⟩) (blkColLab m c ⟨n, hn⟩) (blkThr m c ⟨n, hn⟩)
          (stateAt (F := Ideal) m c (n - 1) hn').2) (ix2 r 0)).trans ?_
        refine (update_apply m c (n / 8) hi (n % 8) hj (blkRow m c ⟨n, hn⟩) (blkCol m c ⟨n, hn⟩) (blkRowLab m c ⟨n, hn⟩)
          (blkColLab m c ⟨n, hn⟩) (blkThr m c ⟨n, hn⟩) (stateAt (F := Ideal) m c (n - 1) hn').2
          (blkRow_apply m c ⟨n, hn⟩) (blkCol_apply m c ⟨n, hn⟩) (blkRowLab_apply m c ⟨n, hn⟩) (blkColLab_apply m c ⟨n, hn⟩)
          (blkThr_apply m c ⟨n, hn⟩) r).trans ?_
        rw [prev]
      · have e := stateAt_mid (F := Ideal) m c ⟨n, hn⟩ h0 h1
        rw [show stateAt (F := Ideal) m c n hn = _ from e]
        dsimp only
        refine (congrFun (accMid_eq (F := Ideal) c (grid0.coords ⟨n, hn⟩) (msRow ⟨n, hn⟩) (hsRow ⟨n, hn⟩) (msCol ⟨n, hn⟩) (hsCol ⟨n, hn⟩)
          (msTRow ⟨n, hn⟩) (hsTRow ⟨n, hn⟩) (msTCol ⟨n, hn⟩) (hsTCol ⟨n, hn⟩) (msThr ⟨n, hn⟩) (hsThr ⟨n, hn⟩) (msOut ⟨n, hn⟩) (hsOut ⟨n, hn⟩)
          accM (Memref.isWhole_whole _) (fun h => h0 ((hcondFirst ⟨n, hn⟩).mp h)) (fun h => h1 ((hcondLast ⟨n, hn⟩).mp h))
          (blkRow m c ⟨n, hn⟩) (blkCol m c ⟨n, hn⟩) (blkRowLab m c ⟨n, hn⟩) (blkColLab m c ⟨n, hn⟩) (blkThr m c ⟨n, hn⟩)
          (stateAt (F := Ideal) m c (n - 1) hn').2) (ix2 r 0)).trans ?_
        refine (update_apply m c (n / 8) hi (n % 8) hj (blkRow m c ⟨n, hn⟩) (blkCol m c ⟨n, hn⟩) (blkRowLab m c ⟨n, hn⟩)
          (blkColLab m c ⟨n, hn⟩) (blkThr m c ⟨n, hn⟩) (stateAt (F := Ideal) m c (n - 1) hn').2
          (blkRow_apply m c ⟨n, hn⟩) (blkCol_apply m c ⟨n, hn⟩) (blkRowLab_apply m c ⟨n, hn⟩) (blkColLab_apply m c ⟨n, hn⟩)
          (blkThr_apply m c ⟨n, hn⟩) r).trans ?_
        rw [prev]

/-- At a point of the last column tile the output window's buffer holds what the scratch holds. -/
theorem out_eq_scratch (n : ℕ) (hn : n < cfg0.N) (h7 : n % 8 = 7) :
    (stateAt (F := Ideal) m c n hn).1 = (stateAt (F := Ideal) m c n hn).2 := by
  have h0 : ¬n % 8 = 0 := by omega
  have hn' : n - 1 < cfg0.N := Nat.lt_of_le_of_lt (Nat.sub_le _ _) hn
  have e := stateAt_last (F := Ideal) m c ⟨n, hn⟩ h0 h7
  rw [show stateAt (F := Ideal) m c n hn = _ from e]
  dsimp only
  exact (outLast_eq (F := Ideal) c (grid0.coords ⟨n, hn⟩) (msRow ⟨n, hn⟩) (hsRow ⟨n, hn⟩) (msCol ⟨n, hn⟩) (hsCol ⟨n, hn⟩)
      (msTRow ⟨n, hn⟩) (hsTRow ⟨n, hn⟩) (msTCol ⟨n, hn⟩) (hsTCol ⟨n, hn⟩) (msThr ⟨n, hn⟩) (hsThr ⟨n, hn⟩) (msOut ⟨n, hn⟩) (hsOut ⟨n, hn⟩)
      accM (Memref.isWhole_whole _) (fun h => h0 ((hcondFirst ⟨n, hn⟩).mp h)) ((hcondLast ⟨n, hn⟩).mpr h7)
      (blkRow m c ⟨n, hn⟩) (blkCol m c ⟨n, hn⟩) (blkRowLab m c ⟨n, hn⟩) (blkColLab m c ⟨n, hn⟩) (blkThr m c ⟨n, hn⟩)
      (stateAt (F := Ideal) m c (n - 1) hn').2).trans
    (accLast_eq (F := Ideal) c (grid0.coords ⟨n, hn⟩) (msRow ⟨n, hn⟩) (hsRow ⟨n, hn⟩) (msCol ⟨n, hn⟩) (hsCol ⟨n, hn⟩)
      (msTRow ⟨n, hn⟩) (hsTRow ⟨n, hn⟩) (msTCol ⟨n, hn⟩) (hsTCol ⟨n, hn⟩) (msThr ⟨n, hn⟩) (hsThr ⟨n, hn⟩) (msOut ⟨n, hn⟩) (hsOut ⟨n, hn⟩)
      accM (Memref.isWhole_whole _) (fun h => h0 ((hcondFirst ⟨n, hn⟩).mp h)) ((hcondLast ⟨n, hn⟩).mpr h7)
      (blkRow m c ⟨n, hn⟩) (blkCol m c ⟨n, hn⟩) (blkRowLab m c ⟨n, hn⟩) (blkColLab m c ⟨n, hn⟩) (blkThr m c ⟨n, hn⟩)
      (stateAt (F := Ideal) m c (n - 1) hn').2).symm

/-! ## What a point of the last column tile writes back -/

/-- A point t = 8·i + 7 writes back block i of the output array: rows 512·i … of the row maxima. -/
theorem flushed_eq (t : Fin cfg0.N) (hf : (cfg0.win 5).flush t = true) :
    (dats (F := Ideal) m 0 c).flushed 5 t = ((cfg0.win 5).blk t).view.read (Elt Ideal) (outArr m c) := by
  have h7 : t.val % 8 = 7 := (flush0_5 t).mp hf
  obtain ⟨-, -, -, -, -, -, -, -, -, -, e0, e1⟩ := idx_facts t
  show (cfg0.win 5).cut (grid0.coords t) ((dats (F := Ideal) m 0 c).after 5 t) = _
  rw [after_out, out_eq_scratch m c t.val t.isLt h7]
  funext y
  rw [View.read_apply]
  have hy0 : (y 0).val < 512 := (y 0).isLt
  have hy1 : (y 1).val < 1 := (y 1).isLt
  have hx : (cfg0.win 5).xinj (grid0.coords t) y = ix2 (⟨(y 0).val, hy0⟩ : Fin 512) (0 : Fin 1) := by
    funext a
    apply Fin.ext
    match a with
    | ⟨0, _⟩ => rfl
    | ⟨1, _⟩ => show (y 1).val = 0; omega
  show (stateAt (F := Ideal) m c t.val t.isLt).2 ((cfg0.win 5).xinj (grid0.coords t) y) = outArr m c (((cfg0.win 5).blk t).view.emb y)
  rw [hx]
  have hp : ((((cfg0.win 5).blk t).view.emb y : S16384x1.Idx) 0).val = 512 * (t.val / 8) + (y 0).val := by
    show win0_5.index t (0 : Fin 2) * 512 + 1 * (y 0).val = 512 * (t.val / 8) + (y 0).val
    rw [e0]; omega
  rw [scratch_apply m c t.val t.isLt ⟨(y 0).val, hy0⟩ ((((cfg0.win 5).blk t).view.emb y : S16384x1.Idx) 0) hp, h7]
  rfl

/-! ## The write-backs cover the array -/

/-- An index of the output array is in point t's block iff each coordinate is in the block's range. -/
theorem mem_blk (t : Fin cfg0.N) (i : S16384x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v28).slice (win0_5.rect t)).set ↔ _
  rw [View.set_slice_whole, Rect.mem_set_unit]
  exact Iff.rfl

/-- Row p of the output array lies in the block written back at the point 8·(p / 512) + 7. -/
theorem covered (i : S16384x1.Idx) :
    ∃ t : Fin cfg0.N, (cfg0.win 5).flush t = true ∧ i ∈ ((cfg0.win 5).blk t).view.set := by
  have hi0 : (i 0).val < 16384 := (i 0).isLt
  have hi1 : (i 1).val < 1 := (i 1).isLt
  have hN : cfg0.N = 256 := N_0
  obtain ⟨t, ht⟩ : ∃ t : Fin cfg0.N, t.val = 8 * ((i 0).val / 512) + 7 := ⟨⟨8 * ((i 0).val / 512) + 7, by omega⟩, rfl⟩
  obtain ⟨-, -, -, -, -, -, -, -, -, -, e0, e1⟩ := idx_facts t
  refine ⟨t, (flush0_5 t).mpr (by omega), ?_⟩
  rw [mem_blk]
  intro a
  match a with
  | ⟨0, _⟩ =>
    show win0_5.index t (0 : Fin 2) * 512 ≤ (i 0).val ∧ (i 0).val < win0_5.index t (0 : Fin 2) * 512 + 512
    rw [e0]; omega
  | ⟨1, _⟩ =>
    show win0_5.index t (1 : Fin 2) * 1 ≤ (i 1).val ∧ (i 1).val < win0_5.index t (1 : Fin 2) * 1 + 1
    rw [e1]; omega

/-! ## The output array after the run -/

/-- After the region the output array holds, at row p, the running maximum of row p over all eight column tiles. -/
theorem out_final : (dats (F := Ideal) m 0 c).arrAt 5 cfg0.N = outArr m c :=
  (dats (F := Ideal) m 0 c).arrAt_eq_of_cover 5 (outArr m c) (fun t hf => flushed_eq m c t hf) (fun i => covered i)

end Cert.KernelIdeal.Val

end
-- ==== Proof.IdealHost.lean ====
/-
  What the host lines before the kernel region leave in the four arrays the region's windows read, index by index
  over the extended reals, stated in the reference program's own stage functions.

  The kernel's host lines and the reference's first lines are the same operations on the same arguments: the row
  norms, the division by the clamped norm, the index pairs (row number, label) and the gather of the logits at
  them, the maximum with 0.1 and the subtraction of 0.1. So each buffer the region reads is, as a term, a stage
  of the reference applied to the kernel's argument arrays, up to three differences that are read at an index:
  the conversion of the normalised rows to bf16, which over the extended reals is the identity; the threshold
  column, which the kernel reshapes from a vector AFTER subtracting while the reference broadcasts BEFORE
  subtracting — both hold max(g p, 0.1) − 0.1 at row p; and the labels, which the kernel reshapes to a column
  and to a row where the reference broadcasts — both hold label p at (p, 0), label q at (0, q).
-/
import proofs.«127936_j46145128629049_1_alg».proof.Proof.IdealSetup
import proofs.«127936_j46145128629049_1_alg».proof.Proof.Gen.ReferenceIdeal.Read
import Idealize.ShloMosaic.Lib.StableHlo.Run
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.ValueIdx Idealize.ShloMosaic.StableHlo
open Cert.KernelIdeal Cert.KernelIdeal.Gen Cert.KernelIdeal.Fr

variable (m : (ℓ : Loc nD τ sig) → Buf (Elt Ideal) ℓ) (c : Dev nD)

/-! ## The two reshapes of the labels -/

/-- The label column is the label vector under the shape [16384, 1]. -/
theorem V_main_v26 : V (F := Ideal) m c main_v26 = (fun i => shapeCast S16384x1 (m ((c : Thread nD τ).loc main_arg2) : (⟨S16384, .i32⟩ : BufTy).Contents (Elt Ideal)) shapeCasts_S16384_S16384x1 i) := by
  dsimp only [V, V0]
  simp only [hostOps0, hostOps0_1, List.flatten_cons, List.flatten_nil, List.append_nil, List.cons_append, List.nil_append]
  after_results
  rfl

/-- The label row is the label vector under the shape [1, 16384]. -/
theorem V_main_v27 : V (F := Ideal) m c main_v27 = (fun i => shapeCast S1x16384 (m ((c : Thread nD τ).loc main_arg2) : (⟨S16384, .i32⟩ : BufTy).Contents (Elt Ideal)) shapeCasts_S16384_S1x16384 i) := by
  dsimp only [V, V0]
  simp only [hostOps0, hostOps0_1, List.flatten_cons, List.flatten_nil, List.append_nil, List.cons_append, List.nil_append]
  after_results
  rfl

/-- Row p of the label column is label p: position p·1 + 0 of the column is position p of the vector. -/
theorem trow_apply (p : Fin 16384) :
    (V (F := Ideal) m c main_v26 : _) (ix2 p 0) = (m ((c : Thread nD τ).loc main_arg2) : (⟨S16384, .i32⟩ : BufTy).Contents (Elt Ideal)) (ix1 p) := by
  rw [V_main_v26]
  refine shapeCast_apply (s := S16384) (t := S16384x1) _ _ _ _ ?_
  show ((⟨1, ![16384]⟩ : Shape).rowMajor (ix1 p)).val = ((⟨2, ![16384, 1]⟩ : Shape).rowMajor (ix2 p 0)).val
  rw [Shape.rowMajor_val_one, Shape.rowMajor_val_two]
  show p.val = p.val * 1 + 0
  omega

/-- Column q of the label row is label q: position 0·16384 + q of the row is position q of the vector. -/
theorem tcol_apply (q : Fin 16384) :
    (V (F := Ideal) m c main_v27 : _) (ix2 0 q) = (m ((c : Thread nD τ).loc main_arg2) : (⟨S16384, .i32⟩ : BufTy).Contents (Elt Ideal)) (ix1 q) := by
  rw [V_main_v27]
  refine shapeCast_apply (s := S16384) (t := S1x16384) _ _ _ _ ?_
  show ((⟨1, ![16384]⟩ : Shape).rowMajor (ix1 q)).val = ((⟨2, ![1, 16384]⟩ : Shape).rowMajor (ix2 0 q)).val
  rw [Shape.rowMajor_val_one, Shape.rowMajor_val_two]
  show q.val = 0 * 16384 + q.val
  omega

/-! ## The normalised rows -/

/-- The embeddings the region reads are the reference's normalised rows, converted to bf16: the norm, the clamp
    and the division are the reference's own first lines. -/
theorem V_main_v5 : V (F := Ideal) m c main_v5
    = (truncf (F := Ideal) .bf16 (Cert.ReferenceIdeal.Read.val_main_v4 (F := Ideal) (m ((c : Thread nD τ).loc main_arg0))) bitsLt_bf16_f32 : (⟨S16384x256, .bf16⟩ : BufTy).Contents (Elt Ideal)) := by
  dsimp only [V, V0]
  simp only [hostOps0, hostOps0_1, List.flatten_cons, List.flatten_nil, List.append_nil, List.cons_append, List.nil_append]
  after_results
  rfl

/-- Over the extended reals the conversion is the identity: the region reads the reference's normalised rows. -/
theorem emb_apply (p : Fin 16384) (k : Fin 256) :
    (V (F := Ideal) m c main_v5 : _) (ix2 p k)
      = Cert.ReferenceIdeal.Read.val_main_v4 (F := Ideal) (m ((c : Thread nD τ).loc main_arg0)) (ix2 p k) := by
  rw [V_main_v5]
  show FloatOps.truncf (F := Ideal) .bf16 bitsLt_bf16_f32 _ = _
  exact Ideal.truncf_def _ _ _

/-! ## The thresholds -/

/-- The threshold column is the vector max(g, 0.1) − 0.1 under the shape [16384, 1], where g is the reference's
    gather of the logits at (row number, label): the index pairs and the gather are the same operations on the
    same arguments in both programs, so the two gathers are one term and are never evaluated. -/
theorem V_main_v25 : V (F := Ideal) m c main_v25
    = (fun i => shapeCast (s := S16384) (α := Ideal .f32) S16384x1 (subf (F := Ideal) (s := S16384) (φ := .f32) (Cert.ReferenceIdeal.Read.val_main_v28 (F := Ideal) (m ((c : Thread nD τ).loc main_arg1)) (m ((c : Thread nD τ).loc main_arg2)))
        (Cert.ReferenceIdeal.Read.val_main_v27 (F := Ideal))) shapeCasts_S16384_S16384x1 i) := by
  dsimp only [V, V0]
  simp only [hostOps0, hostOps0_1, List.flatten_cons, List.flatten_nil, List.append_nil, List.cons_append, List.nil_append]
  after_results_simp
  rfl

/-- At row p both programs hold max(g p, 0.1) − 0.1: the kernel subtracts on the vector and then reshapes, the
    reference broadcasts the maximum and the constant to a column and then subtracts. -/
theorem thr_apply (p : Fin 16384) :
    (V (F := Ideal) m c main_v25 : _) (ix2 p 0)
      = Cert.ReferenceIdeal.Read.val_main_v31 (F := Ideal) (m ((c : Thread nD τ).loc main_arg1)) (m ((c : Thread nD τ).loc main_arg2)) (ix2 p 0) := by
  rw [V_main_v25]
  refine (shapeCast_apply (s := S16384) (t := S16384x1) _ _ _ (ix1 p) ?_).trans ?_
  · show ((⟨1, ![16384]⟩ : Shape).rowMajor (ix1 p)).val = ((⟨2, ![16384, 1]⟩ : Shape).rowMajor (ix2 p 0)).val
    rw [Shape.rowMajor_val_one, Shape.rowMajor_val_two]
    show p.val = p.val * 1 + 0
    omega
  rw [Cert.ReferenceIdeal.Read.val_main_v31_apply, Cert.ReferenceIdeal.Read.val_main_v29_apply,
    Cert.ReferenceIdeal.Read.val_main_v30_apply, Cert.ReferenceIdeal.Read.val_main_cst_4_apply]
  have hi : Cert.ReferenceIdeal.Read.idx_main_v29 (ix2 p 0) = ix1 p := by
    funext a; match a with | ⟨0, _⟩ => rfl
  rw [hi]
  show FloatOps.subf (F := Ideal) (φ := .f32) _ (Cert.ReferenceIdeal.Read.val_main_v27 (F := Ideal) (ix1 p)) = _
  rw [Cert.ReferenceIdeal.Read.val_main_v27_apply, Cert.ReferenceIdeal.Read.val_main_cst_3_apply]

end Cert.KernelIdeal.Val

end
-- ==== Proof.RefSide.lean ====
/-
  The reference's side, over the extended reals.

  The reference forms the 16384 × 16384 matrix of masked margins — entry (p, q) is e_p·e_q − θ_p when the labels of
  p and q differ and e_p·e_q > θ_p, and 0 otherwise, where e is the normalized embedding and θ the threshold column —
  and takes each row's maximum in one reduction from −∞. Read index by index, entry (p, q) is the specification's
  margin of the pair (p, q), so row p's maximum is the specification's loss of row p. The program's result is the sum
  of the row maxima divided by 16384.
-/
import proofs.«127936_j46145128629049_1_alg».proof.Proof.Gen.ReferenceIdeal.Read
import proofs.«127936_j46145128629049_1_alg».proof.Proof.Spec

noncomputable section

namespace Cert.ReferenceIdeal.RefValue

open Idealize.ShloMosaic Idealize.ShloMosaic.ValueIdx Cert.ReferenceIdeal Cert.ReferenceIdeal.Gen Cert.ReferenceIdeal.Read Idealize.ShloMosaic.StableHlo

/-- Entry (p, q) of the masked-margin matrix is the specification's margin of the pair: the labels are those of
    rows p and q, the similarity is the dot product of rows p and q of the normalized embedding (the second factor
    is read through the transpose), and the threshold is row p's, whatever column it is broadcast to. -/
theorem margin_apply (x0 : (⟨S16384x256, .f32⟩ : BufTy).Contents (Elt Ideal)) (x1 : (⟨S16384x1000, .f32⟩ : BufTy).Contents (Elt Ideal)) (x2 : (⟨S16384, .i32⟩ : BufTy).Contents (Elt Ideal)) (p q : Fin 16384) :
    val_main_v38 (F := Ideal) x0 x1 x2 (ix2 p q)
      = Cert.Spec.marg (x2 (ix1 p)) (x2 (ix1 q))
          (Cert.Spec.dot256 (fun k => (val_main_v4 (F := Ideal) x0 (ix2 p k) : EReal)) (fun k => (val_main_v4 (F := Ideal) x0 (ix2 q k) : EReal)))
          (val_main_v31 (F := Ideal) x1 x2 (ix2 p 0) : EReal) := by
  -- the select of (labels differ ∧ similarity > threshold) between (similarity − threshold) and 0, element by element
  rw [val_main_v38_apply, val_main_v34_apply, val_main_v11_apply, val_main_v9_apply, val_main_v10_apply,
    val_main_v7_apply, val_main_v8_apply, val_main_v33_apply, val_main_v32_apply, val_main_v36_apply,
    val_main_v35_apply, val_main_v37_apply, val_main_cst_5_apply, val_main_v6_apply]
  -- where each broadcast, the transpose and the contraction read their operands at (p, q)
  have e7 : idx_main_v7 (idx_main_v9 (ix2 p q)) = ix1 p :=
    funext fun a => Fin.ext (by match a with | ⟨0, _⟩ => rfl)
  have e8 : idx_main_v8 (idx_main_v10 (ix2 p q)) = ix1 q :=
    funext fun a => Fin.ext (by match a with | ⟨0, _⟩ => rfl)
  have e32 : idx_main_v32 (ix2 p q) = ix2 p 0 :=
    funext fun a => Fin.ext (by match a with | ⟨0, _⟩ => rfl | ⟨1, _⟩ => rfl)
  have e35 : idx_main_v35 (ix2 p q) = ix2 p 0 :=
    funext fun a => Fin.ext (by match a with | ⟨0, _⟩ => rfl | ⟨1, _⟩ => rfl)
  have el : ∀ k : Fin 256, lidx_main_v6 (ix2 p q) k = ix2 p k := fun k =>
    funext fun a => Fin.ext (by match a with | ⟨0, _⟩ => rfl | ⟨1, _⟩ => rfl)
  have er : ∀ k : Fin 256, idx_main_v5 (ridx_main_v6 (ix2 p q) k) = ix2 q k := fun k =>
    funext fun a => Fin.ext (by match a with | ⟨0, _⟩ => rfl | ⟨1, _⟩ => rfl)
  rw [e7, e8, e32, e35]
  simp only [val_main_v5_apply, el, er]
  rfl

/-- Row p's maximum in the reference is the specification's loss of row p: the reduction over the column axis from
    −∞ is the fold of max over the 16384 columns, and column q's entry is the margin of the pair (p, q). -/
theorem rowmax_apply (x0 : (⟨S16384x256, .f32⟩ : BufTy).Contents (Elt Ideal)) (x1 : (⟨S16384x1000, .f32⟩ : BufTy).Contents (Elt Ideal)) (x2 : (⟨S16384, .i32⟩ : BufTy).Contents (Elt Ideal)) (p : Fin 16384) :
    val_main_v39 (F := Ideal) x0 x1 x2 (ix1 p)
      = Cert.Spec.lossRow (fun p k => (val_main_v4 (F := Ideal) x0 (ix2 p k) : EReal)) (fun p => (val_main_v31 (F := Ideal) x1 x2 (ix2 p 0) : EReal)) (fun p => x2 (ix1 p)) p := by
  have h : S16384x16384.Reduces [1] S16384 := by decide
  unfold val_main_v39
  rw [Host.reduce_eq_fold_single FloatOps.maximumf _ _ reducesTo_S16384x16384_S16384_d1 h h_S_ (ix1 p)]
  unfold Cert.Spec.lossRow Cert.Spec.rowMax
  -- row index p with column q inserted on the reduced axis is the matrix index (p, q)
  have hf : (val_main_v38 (F := Ideal) x0 x1 x2 ∘ h.lift (ix1 p))
      = fun q : Fin 16384 => Cert.Spec.marg (x2 (ix1 p)) (x2 (ix1 q))
          (Cert.Spec.dot256 (fun k => (val_main_v4 (F := Ideal) x0 (ix2 p k) : EReal)) (fun k => (val_main_v4 (F := Ideal) x0 (ix2 q k) : EReal)))
          (val_main_v31 (F := Ideal) x1 x2 (ix2 p 0) : EReal) := funext fun (q : Fin 16384) => by
    have e : h.lift (ix1 p) q = ix2 p q :=
      funext fun a => Fin.ext (by match a with | ⟨0, _⟩ => rfl | ⟨1, _⟩ => rfl)
    exact (congrArg (val_main_v38 (F := Ideal) x0 x1 x2) e).trans (margin_apply x0 x1 x2 p q)
  rw [hf]
  rfl

/-- The reference's result: the sum (from 0) of the row maxima, divided by 16384. -/
theorem result_eq (x0 : (⟨S16384x256, .f32⟩ : BufTy).Contents (Elt Ideal)) (x1 : (⟨S16384x1000, .f32⟩ : BufTy).Contents (Elt Ideal)) (x2 : (⟨S16384, .i32⟩ : BufTy).Contents (Elt Ideal)) :
    val_main_v41 (F := Ideal) x0 x1 x2
      = Host.divf (F := Ideal) (Host.reduceAdd (F := Ideal) (val_main_v39 (F := Ideal) x0 x1 x2) (constant (F := Ideal) S_ .f32 0x00000000#32) reducesTo_S16384_S_d0 h_S_) (constant (F := Ideal) S_ .f32 0x46800000#32) := rfl

end Cert.ReferenceIdeal.RefValue

end
-- ==== Proof.IdealBridge.lean ====
/-
  The bridge between the two programs, over the extended reals.

  After the region, the kernel program reshapes the region's [16384, 1] output to [16384], sums it from 0 and divides
  by 16384. Entry p of that output is the running maximum, started at 0, over the eight column tiles of row p's
  masked margins, computed from the normalized rows, thresholds and labels the host lines before the region made.
  Those are the reference's own normalized rows, thresholds and labels, so row p's margins are the specification's;
  the running maximum from 0 is the one maximum from −∞ because the diagonal margin is 0; and that maximum is the
  reference's row maximum. So the two programs sum the same vector and divide by the same constant.
-/
import proofs.«127936_j46145128629049_1_alg».proof.Proof.IdealLaunch
import proofs.«127936_j46145128629049_1_alg».proof.Proof.IdealAcc
import proofs.«127936_j46145128629049_1_alg».proof.Proof.IdealHost
import proofs.«127936_j46145128629049_1_alg».proof.Proof.RefSide
import proofs.«127936_j46145128629049_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Fr

/-- A [16384, 1] array reshaped to [16384] reads, at p, the operand at (p, 0): the two have the same row-major
    position, p·1 + 0 = p. -/
private theorem shapeCast_col_apply {α : Type} (x : S16384x1.Idx → α) (h : S16384x1.ShapeCasts S16384) (p : Fin 16384) :
    shapeCast S16384 x h (ix1 p) = x (ix2 p 0) :=
  shapeCast_apply x h _ _ (by
    rw [Shape.rowMajor_val_two, Shape.rowMajor_val_one]
    show p.val * 1 + 0 = p.val
    rw [Nat.mul_one, Nat.add_zero])

/-- THE BRIDGE. The kernel program's result buffer holds the reference's result term. Both are the sum of a
    [16384] vector divided by 16384; the kernel's vector is the region's output column, whose entry p is the running
    maximum over the eight column tiles of row p's margins; the reference's is the row maxima taken in one reduction;
    and the two numbers are the same, because the diagonal margin is 0. -/
theorem kernel_result (m : (ℓ : Loc nD τ sig) → Buf (Elt Ideal) ℓ) (c : Dev nD) :
    StableHlo.after [hostOps1 (F := Ideal)].flatten (W1 (F := Ideal) m c) (Proc.devRef .tc main_v31)
      = Cert.ReferenceIdeal.Read.val_main_v41 (F := Ideal) (m ((c : Thread nD τ).loc main_arg0)) (m ((c : Thread nD τ).loc main_arg1)) (m ((c : Thread nD τ).loc main_arg2)) := by
  -- the averaging lines, applied to the region's output array
  simp only [hostOps1, List.flatten_cons, List.flatten_nil, List.append_nil]
  after_results
  rw [Cert.ReferenceIdeal.RefValue.result_eq]
  -- both sides: the sum from 0 of a [16384] vector, divided by 16384
  refine congrArg (fun v : (⟨S16384, .f32⟩ : BufTy).Contents (Elt Ideal) =>
    Host.divf (F := Ideal) (Host.reduceAdd (F := Ideal) v (constant (F := Ideal) S_ .f32 0x00000000#32) reducesTo_S16384_S_d0 h_S_) (constant (F := Ideal) S_ .f32 0x46800000#32)) ?_
  -- the two vectors agree index by index
  funext j
  obtain ⟨p, rfl⟩ : ∃ p : Fin 16384, j = ix1 p := ⟨j 0, eq_ix1 j⟩
  show shapeCast S16384 (W1 (F := Ideal) m c (Proc.devRef .tc main_v28)) shapeCasts_S16384x1_S16384 (ix1 p) = _
  rw [shapeCast_col_apply]
  have hW : W1 (F := Ideal) m c (Proc.devRef .tc main_v28) = outArr m c := (W1_arr m c 5).trans (out_final m c)
  rw [hW]
  show Cert.Spec.runMax (gRow m c p) 8 = _
  -- row p's margins, over the reference's normalized rows, thresholds and labels
  have hg : gRow m c p = fun q : Fin 16384 =>
      Cert.Spec.marg (m ((c : Thread nD τ).loc main_arg2) (ix1 p)) (m ((c : Thread nD τ).loc main_arg2) (ix1 q))
        (Cert.Spec.dot256 (fun k => Cert.ReferenceIdeal.Read.val_main_v4 (F := Ideal) (m ((c : Thread nD τ).loc main_arg0)) (ix2 p k))
          (fun k => Cert.ReferenceIdeal.Read.val_main_v4 (F := Ideal) (m ((c : Thread nD τ).loc main_arg0)) (ix2 q k)))
        (Cert.ReferenceIdeal.Read.val_main_v31 (F := Ideal) (m ((c : Thread nD τ).loc main_arg1)) (m ((c : Thread nD τ).loc main_arg2)) (ix2 p 0)) :=
    funext fun q => by
      have hp : (fun k : Fin 256 => V (F := Ideal) m c main_v5 (ix2 p k))
          = fun k => Cert.ReferenceIdeal.Read.val_main_v4 (F := Ideal) (m ((c : Thread nD τ).loc main_arg0)) (ix2 p k) :=
        funext fun k => emb_apply m c p k
      have hq : (fun k : Fin 256 => V (F := Ideal) m c main_v5 (ix2 q k))
          = fun k => Cert.ReferenceIdeal.Read.val_main_v4 (F := Ideal) (m ((c : Thread nD τ).loc main_arg0)) (ix2 q k) :=
        funext fun k => emb_apply m c q k
      unfold gRow
      rw [trow_apply m c p, tcol_apply m c q, thr_apply m c p, hp, hq]
  rw [hg]
  -- the running maximum over the eight tiles from 0 is the one maximum from −∞
  exact (Cert.Spec.runMax_loss
      (fun p k => Cert.ReferenceIdeal.Read.val_main_v4 (F := Ideal) (m ((c : Thread nD τ).loc main_arg0)) (ix2 p k))
      (fun p => Cert.ReferenceIdeal.Read.val_main_v31 (F := Ideal) (m ((c : Thread nD τ).loc main_arg1)) (m ((c : Thread nD τ).loc main_arg2)) (ix2 p 0))
      (fun p => m ((c : Thread nD τ).loc main_arg2) (ix1 p)) p).trans
    (Cert.ReferenceIdeal.RefValue.rowmax_apply (m ((c : Thread nD τ).loc main_arg0)) (m ((c : Thread nD τ).loc main_arg1)) (m ((c : Thread nD τ).loc main_arg2)) p).symm

end Cert.KernelIdeal.Val

end
-- ==== Proof.lean ====
/-
  The certificate of the similarity-margin loss kernel against its jnp reference.

  Both programs normalise the rows of the features, gather each row's threshold, and average over the rows the
  maximum, over all columns, of the masked margins of the pairwise similarities. The kernel forms the
  similarities tile by tile (512 rows × 2048 columns per grid point, the embeddings passed to it through two
  windows onto one array) and keeps a running row maximum in scratch across the eight column tiles of a row
  tile, starting from 0; the reference reduces each whole row from −∞. Over the extended reals the two agree
  because the diagonal pair's margin is 0 (equal labels), so a row's maximum is never below the 0 the kernel
  starts from; a change of float format is the identity there, and the shared host arithmetic is never opened.

  The three frames: the kernel programs' by the region's proof data and body obligation (the word-level and the
  idealized program have one text, proved once generically in the float instance), the reference's by its run.
-/
import proofs.«127936_j46145128629049_1_alg».proof.Defs
import proofs.«127936_j46145128629049_1_alg».proof.Proof.Gen.Kernel
import proofs.«127936_j46145128629049_1_alg».proof.Proof.Gen.KernelIdeal
import proofs.«127936_j46145128629049_1_alg».proof.Proof.Gen.ReferenceIdeal
import proofs.«127936_j46145128629049_1_alg».proof.Proof.Gen.ReferenceIdeal.Run
import proofs.«127936_j46145128629049_1_alg».proof.Proof.Gen.ReferenceIdeal.Read
import proofs.«127936_j46145128629049_1_alg».proof.Proof.Gen.Pre_finite_inputs
import proofs.«127936_j46145128629049_1_alg».proof.Proof.BitsLaunch
import proofs.«127936_j46145128629049_1_alg».proof.Proof.IdealResult
import proofs.«127936_j46145128629049_1_alg».proof.Proof.IdealBridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories agreeing on the arguments, both programs end with the reference's
    result term in their result buffer: the kernel's by the bridge, the reference's by its run. -/
theorem algebraic : Cert.algebraic_KernelIdeal_ReferenceIdeal := by
  intro m ρ m' ρ' _ hagree
  refine ⟨fun c => StableHlo.after [Cert.KernelIdeal.Gen.hostOps1 (F := Ideal)].flatten (Cert.KernelIdeal.Fr.W1 (F := Ideal) m c)
      (Proc.devRef .tc Cert.KernelIdeal.main_v31), Cert.KernelIdeal.Fr.run_value (F := Ideal) m ρ, ?_⟩
  refine (θ_run (Cert.ReferenceIdeal.defs (F := Ideal)) _ _).mono (fun _ h c => ⟨(h c).1.trans ?_, (h c).2⟩)
    (Cert.ReferenceIdeal.Value.run (F := Ideal) m' ρ')
  rw [Cert.ReferenceIdeal.Read.val_main_v41_eq, (hagree c).1, (hagree c).2.1, (hagree c).2.2]
  exact (Cert.KernelIdeal.Val.kernel_result m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
